-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1x512x512 : Shape := ⟨4, ![64, 1, 512, 512]⟩
abbrev S_ : Shape := ⟨0, ![]⟩

class Facts : Prop where
  bcast_S_S64x1x512x512 : S_.BroadcastsInDim S64x1x512x512 (![] : Fin 0 → Fin S64x1x512x512.rank)
  reducesTo_S64x1x512x512_S_d0_1_2_3 : S64x1x512x512.ReducesTo [0, 1, 2, 3] S_
  h_S_ : 0 < S_.numel

variable [Facts]

def fn {F : FTy → Type} [FloatOps F] (main_arg0 : FVec F S64x1x512x512 .f32) (main_arg1 : FVec F S64x1x512x512 .f32) : IVec S_ 1 :=
  let main_v0 : FVec F S64x1x512x512 .f32 := Host.absf main_arg0
  let main_cst : FVec F S_ .f32 := constant S_ .f32 0x7F800000#32
  let main_v1 : FVec F S64x1x512x512 .f32 := broadcastInDim S64x1x512x512 ![] bcast_S_S64x1x512x512 main_cst
  let main_v2 : IVec S64x1x512x512 1 := cmpf .olt main_v0 main_v1
  let main_c : IVec S_ 1 := constantI S_ 1 1#1
  let main_v3 : IVec S_ 1 := (fun x v => Host.reduce IntOp.andi x v reducesTo_S64x1x512x512_S_d0_1_2_3 h_S_) main_v2 main_c
  let main_v4 : FVec F S64x1x512x512 .f32 := Host.absf main_arg1
  let main_cst_0 : FVec F S_ .f32 := constant S_ .f32 0x7F800000#32
  let main_v5 : FVec F S64x1x512x512 .f32 := broadcastInDim S64x1x512x512 ![] bcast_S_S64x1x512x512 main_cst_0
  let main_v6 : IVec S64x1x512x512 1 := cmpf .olt main_v4 main_v5
  let main_c_1 : IVec S_ 1 := constantI S_ 1 1#1
  let main_v7 : IVec S_ 1 := (fun x v => Host.reduce IntOp.andi x v reducesTo_S64x1x512x512_S_d0_1_2_3 h_S_) main_v6 main_c_1
  let main_v8 : IVec S_ 1 := andi main_v3 main_v7
  main_v8
-- ==== Kernel.lean ====
abbrev S64x1x512x512 : Shape := ⟨4, ![64, 1, 512, 512]⟩
abbrev S1x1 : Shape := ⟨2, ![1, 1]⟩
abbrev S2x1x512x512 : Shape := ⟨4, ![2, 1, 512, 512]⟩
abbrev S2x1x1x512 : Shape := ⟨4, ![2, 1, 1, 512]⟩
abbrev S2x1x510x512 : Shape := ⟨4, ![2, 1, 510, 512]⟩
abbrev S2x1x512x1 : Shape := ⟨4, ![2, 1, 512, 1]⟩
abbrev S2x1x512x510 : Shape := ⟨4, ![2, 1, 512, 510]⟩
abbrev S1x2x1x512x512 : Shape := ⟨5, ![1, 2, 1, 512, 512]⟩
abbrev S1 : Shape := ⟨1, ![1]⟩
abbrev S1x1x1x1x1 : Shape := ⟨5, ![1, 1, 1, 1, 1]⟩
abbrev S_ : Shape := ⟨0, ![]⟩

abbrev nBuf : Space → Nat
  | .hbm => 4
  | .vmem => 5
  | .smem => 0
  | _ => 0

abbrev bufTy : (tb : Table) → Fin (tcTables nBuf tb) → BufTy
  | .hbm, ⟨0, _⟩ => ⟨S64x1x512x512, .f32⟩
  | .hbm, ⟨1, _⟩ => ⟨S64x1x512x512, .f32⟩
  | .hbm, ⟨2, _⟩ => ⟨S1x1, .f32⟩
  | .hbm, ⟨3, _⟩ => ⟨S_, .f32⟩
  | .local _ .vmem, ⟨0, _⟩ => ⟨S2x1x512x512, .f32⟩
  | .local _ .vmem, ⟨1, _⟩ => ⟨S2x1x512x512, .f32⟩
  | .local _ .vmem, ⟨2, _⟩ => ⟨S2x1x512x512, .f32⟩
  | .local _ .vmem, ⟨3, _⟩ => ⟨S2x1x512x512, .f32⟩
  | .local _ .vmem, ⟨4, _⟩ => ⟨S1x1, .f32⟩
  | _, _ => ⟨S64x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S2x1x512x512_S2x1x512x512_0_0_0_0 : ∀ a, (![0, 0, 0, 0] : Fin 4 → Nat) a + S2x1x512x512.size a ≤ S2x1x512x512.size a
  h_S2x1x512x512 : 0 < S2x1x512x512.numel
  slices_S2x1x512x512_o0_0_1_0_S2x1x1x512 : S2x1x512x512.Slices ![0, 0, 1, 0] S2x1x1x512
  slices_S2x1x512x512_o0_0_0_0_S2x1x1x512 : S2x1x512x512.Slices ![0, 0, 0, 0] S2x1x1x512
  slices_S2x1x512x512_o0_0_2_0_S2x1x510x512 : S2x1x512x512.Slices ![0, 0, 2, 0] S2x1x510x512
  slices_S2x1x512x512_o0_0_0_0_S2x1x510x512 : S2x1x512x512.Slices ![0, 0, 0, 0] S2x1x510x512
  slices_S2x1x512x512_o0_0_511_0_S2x1x1x512 : S2x1x512x512.Slices ![0, 0, 511, 0] S2x1x1x512
  slices_S2x1x512x512_o0_0_510_0_S2x1x1x512 : S2x1x512x512.Slices ![0, 0, 510, 0] S2x1x1x512
  concatenates_S2x1x1x512_S2x1x510x512_S2x1x1x512_S2x1x512x512_d2 : Shape.Concatenates [S2x1x1x512, S2x1x510x512, S2x1x1x512] S2x1x512x512 2
  slices_S2x1x512x512_o0_0_0_1_S2x1x512x1 : S2x1x512x512.Slices ![0, 0, 0, 1] S2x1x512x1
  slices_S2x1x512x512_o0_0_0_0_S2x1x512x1 : S2x1x512x512.Slices ![0, 0, 0, 0] S2x1x512x1
  slices_S2x1x512x512_o0_0_0_2_S2x1x512x510 : S2x1x512x512.Slices ![0, 0, 0, 2] S2x1x512x510
  slices_S2x1x512x512_o0_0_0_0_S2x1x512x510 : S2x1x512x512.Slices ![0, 0, 0, 0] S2x1x512x510
  slices_S2x1x512x512_o0_0_0_511_S2x1x512x1 : S2x1x512x512.Slices ![0, 0, 0, 511] S2x1x512x1
  slices_S2x1x512x512_o0_0_0_510_S2x1x512x1 : S2x1x512x512.Slices ![0, 0, 0, 510] S2x1x512x1
  concatenates_S2x1x512x1_S2x1x512x510_S2x1x512x1_S2x1x512x512_d3 : Shape.Concatenates [S2x1x512x1, S2x1x512x510, S2x1x512x1] S2x1x512x512 3
  shapeCasts_S2x1x512x512_S1x2x1x512x512 : S2x1x512x512.ShapeCasts S1x2x1x512x512
  reduces_S1x2x1x512x512_S1 : S1x2x1x512x512.Reduces [1, 2, 3, 4] S1
  shapeCasts_S1_S1x1x1x1x1 : S1.ShapeCasts S1x1x1x1x1
  inpos_S1x1x1x1x1_p0_0_0_0_0 : ∀ a, (![0, 0, 0, 0, 0] : Fin 5 → Nat) a < S1x1x1x1x1.size a
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1x512x512.size a ≤ S64x1x512x512.size a
  hwx0_0 : ∀ i : grid0.Coords, EltTy.bits .f32 = 32 ∨ (Rect.block (s := S64x1x512x512) S2x1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1x512x512.size a ≤ S64x1x512x512.size a
  hwx0_1 : ∀ i : grid0.Coords, EltTy.bits .f32 = 32 ∨ (Rect.block (s := S64x1x512x512) S2x1x512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S2x1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x1x512x512 : Shape := ⟨4, ![64, 1, 512, 512]⟩
abbrev S64x1x1x512 : Shape := ⟨4, ![64, 1, 1, 512]⟩
abbrev S64x1x510x512 : Shape := ⟨4, ![64, 1, 510, 512]⟩
abbrev S64x1x512x1 : Shape := ⟨4, ![64, 1, 512, 1]⟩
abbrev S64x1x512x510 : Shape := ⟨4, ![64, 1, 512, 510]⟩
abbrev S64x1x512x512x1 : Shape := ⟨5, ![64, 1, 512, 512, 1]⟩
abbrev S64x1x512x512x2 : Shape := ⟨5, ![64, 1, 512, 512, 2]⟩
abbrev S_ : Shape := ⟨0, ![]⟩

abbrev nBuf : Space → Nat
  | .hbm => 78
  | .vmem => 0
  | .smem => 0
  | _ => 0

abbrev bufTy : (tb : Table) → Fin (tcTables nBuf tb) → BufTy
  | .hbm, ⟨0, _⟩ => ⟨S64x1x512x512, .f32⟩
  | .hbm, ⟨1, _⟩ => ⟨S64x1x512x512, .f32⟩
  | .hbm, ⟨2, _⟩ => ⟨S64x1x1x512, .f32⟩
  | .hbm, ⟨3, _⟩ => ⟨S64x1x1x512, .f32⟩
  | .hbm, ⟨4, _⟩ => ⟨S64x1x1x512, .f32⟩
  | .hbm, ⟨5, _⟩ => ⟨S64x1x510x512, .f32⟩
  | .hbm, ⟨6, _⟩ => ⟨S64x1x510x512, .f32⟩
  | .hbm, ⟨7, _⟩ => ⟨S64x1x510x512, .f32⟩
  | .hbm, ⟨8, _⟩ => ⟨S64x1x1x512, .f32⟩
  | .hbm, ⟨9, _⟩ => ⟨S64x1x1x512, .f32⟩
  | .hbm, ⟨10, _⟩ => ⟨S64x1x1x512, .f32⟩
  | .hbm, ⟨11, _⟩ => ⟨S64x1x512x512, .f32⟩
  | .hbm, ⟨12, _⟩ => ⟨S64x1x512x1, .f32⟩
  | .hbm, ⟨13, _⟩ => ⟨S64x1x512x1, .f32⟩
  | .hbm, ⟨14, _⟩ => ⟨S64x1x512x1, .f32⟩
  | .hbm, ⟨15, _⟩ => ⟨S64x1x512x510, .f32⟩
  | .hbm, ⟨16, _⟩ => ⟨S64x1x512x510, .f32⟩
  | .hbm, ⟨17, _⟩ => ⟨S64x1x512x510, .f32⟩
  | .hbm, ⟨18, _⟩ => ⟨S64x1x512x1, .f32⟩
  | .hbm, ⟨19, _⟩ => ⟨S64x1x512x1, .f32⟩
  | .hbm, ⟨20, _⟩ => ⟨S64x1x512x1, .f32⟩
  | .hbm, ⟨21, _⟩ => ⟨S64x1x512x512, .f32⟩
  | .hbm, ⟨22, _⟩ => ⟨S64x1x512x512x1, .f32⟩
  | .hbm, ⟨23, _⟩ => ⟨S64x1x512x512x1, .f32⟩
  | .hbm, ⟨24, _⟩ => ⟨S64x1x512x512x2, .f32⟩
  | .hbm, ⟨25, _⟩ => ⟨S64x1x512x512x2, .f32⟩
  | .hbm, ⟨26, _⟩ => ⟨S_, .f32⟩
  | .hbm, ⟨27, _⟩ => ⟨S64x1x512x512, .f32⟩
  | .hbm, ⟨28, _⟩ => ⟨S64x1x512x512x1, .f32⟩
  | .hbm, ⟨29, _⟩ => ⟨S_, .f32⟩
  | .hbm, ⟨30, _⟩ => ⟨S64x1x512x512x1, .f32⟩
  | .hbm, ⟨31, _⟩ => ⟨S64x1x512x512x1, .f32⟩
  | .hbm, ⟨32, _⟩ => ⟨S64x1x512x512x1, .f32⟩
  | .hbm, ⟨33, _⟩ => ⟨S64x1x512x512x2, .f32⟩
  | .hbm, ⟨34, _⟩ => ⟨S64x1x512x512x2, .f32⟩
  | .hbm, ⟨35, _⟩ => ⟨S64x1x1x512, .f32⟩
  | .hbm, ⟨36, _⟩ => ⟨S64x1x1x512, .f32⟩
  | .hbm, ⟨37, _⟩ => ⟨S64x1x1x512, .f32⟩
  | .hbm, ⟨38, _⟩ => ⟨S64x1x510x512, .f32⟩
  | .hbm, ⟨39, _⟩ => ⟨S64x1x510x512, .f32⟩
  | .hbm, ⟨40, _⟩ => ⟨S64x1x510x512, .f32⟩
  | .hbm, ⟨41, _⟩ => ⟨S64x1x1x512, .f32⟩
  | .hbm, ⟨42, _⟩ => ⟨S64x1x1x512, .f32⟩
  | .hbm, ⟨43, _⟩ => ⟨S64x1x1x512, .f32⟩
  | .hbm, ⟨44, _⟩ => ⟨S64x1x512x512, .f32⟩
  | .hbm, ⟨45, _⟩ => ⟨S64x1x512x1, .f32⟩
  | .hbm, ⟨46, _⟩ => ⟨S64x1x512x1, .f32⟩
  | .hbm, ⟨47, _⟩ => ⟨S64x1x512x1, .f32⟩
  | .hbm, ⟨48, _⟩ => ⟨S64x1x512x510, .f32⟩
  | .hbm, ⟨49, _⟩ => ⟨S64x1x512x510, .f32⟩
  | .hbm, ⟨50, _⟩ => ⟨S64x1x512x510, .f32⟩
  | .hbm, ⟨51, _⟩ => ⟨S64x1x512x1, .f32⟩
  | .hbm, ⟨52, _⟩ => ⟨S64x1x512x1, .f32⟩
  | .hbm, ⟨53, _⟩ => ⟨S64x1x512x1, .f32⟩
  | .hbm, ⟨54, _⟩ => ⟨S64x1x512x512, .f32⟩
  | .hbm, ⟨55, _⟩ => ⟨S64x1x512x512x1, .f32⟩
  | .hbm, ⟨56, _⟩ => ⟨S64x1x512x512x1, .f32⟩
  | .hbm, ⟨57, _⟩ => ⟨S64x1x512x512x2, .f32⟩
  | .hbm, ⟨58, _⟩ => ⟨S64x1x512x512x2, .f32⟩
  | .hbm, ⟨59, _⟩ => ⟨S_, .f32⟩
  | .hbm, ⟨60, _⟩ => ⟨S64x1x512x512, .f32⟩
  | .hbm, ⟨61, _⟩ => ⟨S64x1x512x512x1, .f32⟩
  | .hbm, ⟨62, _⟩ => ⟨S_, .f32⟩
  | .hbm, ⟨63, _⟩ => ⟨S64x1x512x512x1, .f32⟩
  | .hbm, ⟨64, _⟩ => ⟨S64x1x512x512x1, .f32⟩
  | .hbm, ⟨65, _⟩ => ⟨S64x1x512x512x1, .f32⟩
  | .hbm, ⟨66, _⟩ => ⟨S64x1x512x512x2, .f32⟩
  | .hbm, ⟨67, _⟩ => ⟨S64x1x512x512x2, .f32⟩
  | .hbm, ⟨68, _⟩ => ⟨S64x1x512x512x2, .f32⟩
  | .hbm, ⟨69, _⟩ => ⟨S_, .f32⟩
  | .hbm, ⟨70, _⟩ => ⟨S64x1x512x512, .f32⟩
  | .hbm, ⟨71, _⟩ => ⟨S64x1x512x512, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | _, _ => ⟨S64x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_cst : Ref sig .tc := ⟨.hbm, 26, rfl⟩
abbrev main_v24 : Ref sig .tc := ⟨.hbm, 27, rfl⟩
abbrev main_v25 : Ref sig .tc := ⟨.hbm, 28, rfl⟩
abbrev main_cst_0 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_cst_1 : Ref sig .tc := ⟨.hbm, 59, rfl⟩
abbrev main_v55 : Ref sig .tc := ⟨.hbm, 60, rfl⟩
abbrev main_v56 : Ref sig .tc := ⟨.hbm, 61, rfl⟩
abbrev main_cst_2 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_cst_3 : Ref sig .tc := ⟨.hbm, 69, rfl⟩
abbrev main_v63 : Ref sig .tc := ⟨.hbm, 70, rfl⟩
abbrev main_v64 : Ref sig .tc := ⟨.hbm, 71, rfl⟩
abbrev main_cst_4 : Ref sig .tc := ⟨.hbm, 72, rfl⟩
abbrev main_v65 : Ref sig .tc := ⟨.hbm, 73, rfl⟩
abbrev main_cst_5 : Ref sig .tc := ⟨.hbm, 74, rfl⟩
abbrev main_v66 : Ref sig .tc := ⟨.hbm, 75, rfl⟩
abbrev main_cst_6 : Ref sig .tc := ⟨.hbm, 76, rfl⟩
abbrev main_v67 : Ref sig .tc := ⟨.hbm, 77, rfl⟩

abbrev nD : Nat := 1
abbrev τ : Topo := Topo.v7x

variable {F : FTy → Type} [FloatOps F]

class Facts₀ : Prop where
  slices_S64x1x512x512_S64x1x1x512_0_0_1_0 : S64x1x512x512.Slices ![0, 0, 1, 0] S64x1x1x512
  slices_S64x1x512x512_S64x1x1x512_0_0_0_0 : S64x1x512x512.Slices ![0, 0, 0, 0] S64x1x1x512
  slices_S64x1x512x512_S64x1x510x512_0_0_2_0 : S64x1x512x512.Slices ![0, 0, 2, 0] S64x1x510x512
  slices_S64x1x512x512_S64x1x510x512_0_0_0_0 : S64x1x512x512.Slices ![0, 0, 0, 0] S64x1x510x512
  slices_S64x1x512x512_S64x1x1x512_0_0_511_0 : S64x1x512x512.Slices ![0, 0, 511, 0] S64x1x1x512
  slices_S64x1x512x512_S64x1x1x512_0_0_510_0 : S64x1x512x512.Slices ![0, 0, 510, 0] S64x1x1x512
  concatenates_S64x1x1x512_S64x1x510x512_S64x1x1x512_S64x1x512x512_d2 : Shape.Concatenates [S64x1x1x512, S64x1x510x512, S64x1x1x512] S64x1x512x512 2
  slices_S64x1x512x512_S64x1x512x1_0_0_0_1 : S64x1x512x512.Slices ![0, 0, 0, 1] S64x1x512x1
  slices_S64x1x512x512_S64x1x512x1_0_0_0_0 : S64x1x512x512.Slices ![0, 0, 0, 0] S64x1x512x1
  slices_S64x1x512x512_S64x1x512x510_0_0_0_2 : S64x1x512x512.Slices ![0, 0, 0, 2] S64x1x512x510
  slices_S64x1x512x512_S64x1x512x510_0_0_0_0 : S64x1x512x512.Slices ![0, 0, 0, 0] S64x1x512x510
  slices_S64x1x512x512_S64x1x512x1_0_0_0_511 : S64x1x512x512.Slices ![0, 0, 0, 511] S64x1x512x1
  slices_S64x1x512x512_S64x1x512x1_0_0_0_510 : S64x1x512x512.Slices ![0, 0, 0, 510] S64x1x512x1
  concatenates_S64x1x512x1_S64x1x512x510_S64x1x512x1_S64x1x512x512_d3 : Shape.Concatenates [S64x1x512x1, S64x1x512x510, S64x1x512x1] S64x1x512x512 3
  bcast_S64x1x512x512_S64x1x512x512x1_0_1_2_3 : S64x1x512x512.BroadcastsInDim S64x1x512x512x1 (![0, 1, 2, 3] : Fin 4 → Fin S64x1x512x512x1.rank)
  concatenates_S64x1x512x512x1_S64x1x512x512x1_S64x1x512x512x2_d4 : Shape.Concatenates [S64x1x512x512x1, S64x1x512x512x1] S64x1x512x512x2 4
  reducesTo_S64x1x512x512x2_S64x1x512x512_d4 : S64x1x512x512x2.ReducesTo [4] S64x1x512x512
  h_S_ : 0 < S_.numel
  bcast_S_S64x1x512x512x1 : S_.BroadcastsInDim S64x1x512x512x1 (![] : Fin 0 → Fin S64x1x512x512x1.rank)
  bcast_S64x1x512x512x1_S64x1x512x512x2_0_1_2_3_4 : S64x1x512x512x1.BroadcastsInDim S64x1x512x512x2 (![0, 1, 2, 3, 4] : Fin 5 → Fin S64x1x512x512x2.rank)
  reducesTo_S64x1x512x512_S_d0_1_2_3 : S64x1x512x512.ReducesTo [0, 1, 2, 3] S_

variable [Facts₀]

class Facts : Prop extends Facts₀ where

variable [Facts]
-- ==== Proof.KernelPieces.lean ====
/-
  What each control case of the kernel body leaves in the accumulator's buffer, as the body's arithmetic applied
  to the two input blocks and to what the buffer held: at the first grid point the accumulation step over the
  reset value (the reset is stored, read back and added to); at a middle point the accumulation step over the
  value found; at the last point the finishing step applied to the accumulation step over the value found (the
  accumulated value is stored, read back and finished). At any float instance.
-/
import proofs.«171857_j40200893891260_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem zero2 : (![0, 0] : Fin 2 → Nat) = fun _ => 0 := funext fun a => by fin_cases a <;> rfl
theorem zero4 : (![0, 0, 0, 0] : Fin 4 → Nat) = fun _ => 0 := funext fun a => by fin_cases a <;> rfl

/-- The accumulation step: the value the body stores into the accumulator from the first input's block `x0`,
    the second's `x1` and the accumulator's contents `acc`. -/
abbrev accum (x0 x1 : Vec F S2x1x512x512 .f32) (acc : Vec F S1x1 .f32) : FVec F S1x1 .f32 :=
  k0_pay1 x1 (k0_pay7 x0) (k0_pay8 x0) (k0_pay9 x1) (k0_pay10 x1) (k0_pay11 x1) acc

/-- A middle point: one covering store, of the accumulation step over what the buffer held. -/
theorem out_B (c : Dev nD) (i : grid0.Coords) (a1 : Memref sig .tc .vmem S2x1x512x512 .f32) (h1 : a1.IsWhole)
    (a2 : Memref sig .tc .vmem S2x1x512x512 .f32) (h2 : a2.IsWhole) (a3 : Memref sig .tc .vmem S1x1 .f32) (h3 : a3.IsWhole)
    (hc0 : ¬cond0_0 i) (hc1 : ¬cond0_1 i) (x0 x1 : Vec F S2x1x512x512 .f32) (xo : Vec F S1x1 .f32) :
    out0_B_2 c i a1 h1 a2 h2 a3 h3 hc0 hc1 x0 x1 xo = accum x0 x1 xo := by
  unfold out0_B_2
  rw [View.read_writes_eq_canon _ _ _ (cover0_B_2 c i a1 h1 a2 h2 a3 h3 hc0 hc1 x0 x1 xo)]
  unfold kernelRun0_B
  dsimp only
  sl_unfold_words
  rw [View.canon_unit_zero (S := S1x1) zero2]
  simp only [View.readAt_eq_ld, h1.read_unread, h2.read_unread, h3.read_unread,
    View.ld_unit_zero (S := S2x1x512x512) zero4, View.ld_unit_zero (S := S1x1) zero2]

/-- The first point: the reset, then the accumulation step over the reset value read back. -/
theorem out_A (c : Dev nD) (i : grid0.Coords) (a1 : Memref sig .tc .vmem S2x1x512x512 .f32) (h1 : a1.IsWhole)
    (a2 : Memref sig .tc .vmem S2x1x512x512 .f32) (h2 : a2.IsWhole) (a3 : Memref sig .tc .vmem S1x1 .f32) (h3 : a3.IsWhole)
    (hc0 : cond0_0 i) (hc1 : ¬cond0_1 i) (x0 x1 : Vec F S2x1x512x512 .f32) :
    out0_A_2 c i a1 h1 a2 h2 a3 h3 hc0 hc1 x0 x1 = accum x0 x1 (k0_pay3 (F := F)) := by
  unfold out0_A_2
  rw [View.read_writes_eq_canon _ _ _ (cover0_A_2 c i a1 h1 a2 h2 a3 h3 hc0 hc1 x0 x1)]
  unfold kernelRun0_A
  dsimp only
  sl_unfold_words
  rw [View.canon_cons_unit_zero (S := S1x1) zero2]
  simp only [View.readAt_eq_ld, h1.read_unread, h2.read_unread, View.readCov_unit_zero (S := S1x1) _ zero2,
    View.ld_unit_zero (S := S2x1x512x512) zero4]

/-- The last point: the accumulation step over what the buffer held, then the finishing step over that value read back. -/
theorem out_C (c : Dev nD) (i : grid0.Coords) (a1 : Memref sig .tc .vmem S2x1x512x512 .f32) (h1 : a1.IsWhole)
    (a2 : Memref sig .tc .vmem S2x1x512x512 .f32) (h2 : a2.IsWhole) (a3 : Memref sig .tc .vmem S1x1 .f32) (h3 : a3.IsWhole)
    (hc0 : ¬cond0_0 i) (hc1 : cond0_1 i) (x0 x1 : Vec F S2x1x512x512 .f32) (xo : Vec F S1x1 .f32) :
    out0_C_2 c i a1 h1 a2 h2 a3 h3 hc0 hc1 x0 x1 xo = k0_pay2 (accum x0 x1 xo) := by
  unfold out0_C_2
  rw [View.read_writes_eq_canon _ _ _ (cover0_C_2 c i a1 h1 a2 h2 a3 h3 hc0 hc1 x0 x1 xo)]
  unfold kernelRun0_C
  dsimp only
  sl_unfold_words
  rw [View.canon_cons_unit_zero (S := S1x1) zero2]
  simp only [View.readAt_eq_ld, h1.read_unread, h2.read_unread, h3.read_unread, View.readCov_unit_zero (S := S1x1) _ zero2,
    View.ld_unit_zero (S := S2x1x512x512) zero4, View.ld_unit_zero (S := S1x1) zero2]

end Cert.KernelIdeal.Pieces

end
-- ==== Proof.Stencil.lean ====
/-
  The mathematics both programs share, over the extended reals, with no program in sight.

  An image stack is `n` planes of 512 x 512 extended reals. Its finite-difference gradient along an axis is
  forward at the first position, backward at the last and central in between; all three are ONE formula when the
  neighbours are clamped to the axis: `x (min (h + 1) 511) - x (h - 1)` (truncated subtraction). The per-pixel
  quantity is the squared inner product of the two stacks' unit-normalised gradient vectors, the normaliser
  `sqrt (gx ^ 2 + gy ^ 2 + eps)`; the loss is one minus the sum of that quantity over every pixel divided by the pixel count.

  Here also: a concatenation of the three difference pieces along rows (or along columns), read at an index, is
  that clamped difference — for any number of planes, so that it serves a block of two planes and the whole stack
  of sixty-four alike; and a sum over a rank-four index with a unit second axis as a triple sum.
-/
import Idealize.ShloMosaic.PureOps.Ideal
import Idealize.ShloMosaic.PureOps.Ideal.Laws
import Idealize.ShloMosaic.Lib.ValueIdx
import Idealize.ShloMosaic.Lib.Pipeline.Value

noncomputable section

namespace Cert.NGF

open Idealize.ShloMosaic Idealize.ShloMosaic.ValueIdx
open scoped BigOperators

/-- `n` planes of 512 x 512 extended reals. -/
abbrev Planes (n : ℕ) : Type := Fin n → Fin 512 → Fin 512 → EReal

/-- The next position along an axis of extent 512, clamped at the last. -/
def up (h : Fin 512) : Fin 512 := ⟨min (h.val + 1) 511, by omega⟩
/-- The previous position, clamped at the first. -/
def down (h : Fin 512) : Fin 512 := ⟨h.val - 1, by omega⟩

/-- The difference along rows: forward at row 0, backward at row 511, central between. -/
def rowDiff {n : ℕ} (x : Planes n) (b : Fin n) (h w : Fin 512) : EReal := x b (up h) w - x b (down h) w
/-- The difference along columns, likewise. -/
def colDiff {n : ℕ} (x : Planes n) (b : Fin n) (h w : Fin 512) : EReal := x b h (up w) - x b h (down w)

/-- The shape of a stack of `n` planes with its unit channel axis. -/
abbrev Stack (n : ℕ) : Shape := ⟨4, ![n, 1, 512, 512]⟩

/-- A rank-four array with a unit channel axis, as planes. -/
def planes {n : ℕ} (X : (Stack n).Idx → EReal) : Planes n := fun b h w => X (ix4 b 0 h w)

/-- The stabiliser under the square root: the single-precision word nearest 1e-10, the same word in both programs. -/
def eps : EReal := Ideal.ofBits .f32 0x2EDBE6FF#32
/-- The pixel count 64 * 512 * 512 = 2 ^ 24 as both programs spell it. -/
def count : EReal := Ideal.ofBits .f32 0x4B800000#32
/-- One, as both programs spell it. -/
def one : EReal := Ideal.ofBits .f32 0x3F800000#32

/-- The squared inner product of the unit-normalised vectors `(a0, b0)` and `(a1, b1)`. -/
def unitDotSq (a0 b0 a1 b1 : EReal) : EReal :=
  (Ideal.div a0 (Ideal.sqrt (a0 * a0 + b0 * b0 + eps)) * Ideal.div a1 (Ideal.sqrt (a1 * a1 + b1 * b1 + eps))
    + Ideal.div b0 (Ideal.sqrt (a0 * a0 + b0 * b0 + eps)) * Ideal.div b1 (Ideal.sqrt (a1 * a1 + b1 * b1 + eps)))
  * (Ideal.div a0 (Ideal.sqrt (a0 * a0 + b0 * b0 + eps)) * Ideal.div a1 (Ideal.sqrt (a1 * a1 + b1 * b1 + eps))
    + Ideal.div b0 (Ideal.sqrt (a0 * a0 + b0 * b0 + eps)) * Ideal.div b1 (Ideal.sqrt (a1 * a1 + b1 * b1 + eps)))

/-- The per-pixel quantity of two stacks. -/
def pix {n : ℕ} (x0 x1 : Planes n) (b : Fin n) (h w : Fin 512) : EReal :=
  unitDotSq (rowDiff x0 b h w) (colDiff x0 b h w) (rowDiff x1 b h w) (colDiff x1 b h w)

/-- Its sum over every pixel of every plane. -/
def planeSum {n : ℕ} (x0 x1 : Planes n) : EReal := ∑ b : Fin n, ∑ h : Fin 512, ∑ w : Fin 512, pix x0 x1 b h w

/-- The loss of two stacks of sixty-four planes. -/
def loss (x0 x1 : Planes 64) : EReal := one - Ideal.div (planeSum x0 x1) count

/-- The indices of a stack are the triples of plane, row and column: the channel coordinate is always 0. -/
private def stackEquiv (n : ℕ) : (Stack n).Idx ≃ Fin n × Fin 512 × Fin 512 where
  toFun i := (i 0, i 2, i 3)
  invFun p := ix4 p.1 0 p.2.1 p.2.2
  left_inv i := by
    funext a
    match a with
    | ⟨0, _⟩ => rfl
    | ⟨1, _⟩ =>
      refine Fin.ext ?_
      have h1 : (i 1).val < 1 := (i 1).isLt
      show (0 : ℕ) = (i 1).val
      omega
    | ⟨2, _⟩ => rfl
    | ⟨3, _⟩ => rfl
  right_inv _ := rfl

/-- A sum over the indices of a stack is the triple sum over plane, row and column. -/
theorem sum_stack {n : ℕ} (f : (Stack n).Idx → EReal) :
    ∑ j : (Stack n).Idx, f j = ∑ b : Fin n, ∑ h : Fin 512, ∑ w : Fin 512, f (ix4 b 0 h w) := by
  rw [← Equiv.sum_comp (stackEquiv n).symm f]
  simp only [Fintype.sum_prod_type]
  rfl

/-- The three row-difference pieces (row 1 minus row 0; rows 2.. minus rows ..510; row 511 minus row 510) laid end to
    end along the row axis, read at `(b, 0, h, w)`: the clamped difference. -/
theorem rowGrad_apply (n : ℕ) (X : FVec Ideal (Stack n) .f32)
    (s1 : (Stack n).Slices ![0, 0, 1, 0] ⟨4, ![n, 1, 1, 512]⟩) (s0 : (Stack n).Slices ![0, 0, 0, 0] ⟨4, ![n, 1, 1, 512]⟩)
    (s2 : (Stack n).Slices ![0, 0, 2, 0] ⟨4, ![n, 1, 510, 512]⟩) (s0' : (Stack n).Slices ![0, 0, 0, 0] ⟨4, ![n, 1, 510, 512]⟩)
    (s511 : (Stack n).Slices ![0, 0, 511, 0] ⟨4, ![n, 1, 1, 512]⟩) (s510 : (Stack n).Slices ![0, 0, 510, 0] ⟨4, ![n, 1, 1, 512]⟩)
    (hc : Shape.Concatenates [⟨4, ![n, 1, 1, 512]⟩, ⟨4, ![n, 1, 510, 512]⟩, ⟨4, ![n, 1, 1, 512]⟩] (Stack n) 2)
    (b : Fin n) (h w : Fin 512) :
    concatenate (Stack n) 2
      [⟨⟨4, ![n, 1, 1, 512]⟩, subf (extractStridedSlice ⟨4, ![n, 1, 1, 512]⟩ ![0, 0, 1, 0] X s1) (extractStridedSlice ⟨4, ![n, 1, 1, 512]⟩ ![0, 0, 0, 0] X s0)⟩,
       ⟨⟨4, ![n, 1, 510, 512]⟩, subf (extractStridedSlice ⟨4, ![n, 1, 510, 512]⟩ ![0, 0, 2, 0] X s2) (extractStridedSlice ⟨4, ![n, 1, 510, 512]⟩ ![0, 0, 0, 0] X s0')⟩,
       ⟨⟨4, ![n, 1, 1, 512]⟩, subf (extractStridedSlice ⟨4, ![n, 1, 1, 512]⟩ ![0, 0, 511, 0] X s511) (extractStridedSlice ⟨4, ![n, 1, 1, 512]⟩ ![0, 0, 510, 0] X s510)⟩]
      hc (ix4 b 0 h w)
    = rowDiff (planes X) b h w := by
  have hv : h.val < 512 := h.isLt
  by_cases h0 : h.val = 0
  · have hu : up h = ⟨1, by omega⟩ := Fin.ext (by show min (h.val + 1) 511 = 1; omega)
    have hd : down h = ⟨0, by omega⟩ := Fin.ext (by show h.val - 1 = 0; omega)
    -- position 0: the first piece, at its only position
    refine (concatenate_apply_piece (t := Stack n) (2 : Fin 4)
      [⟨⟨4, ![n, 1, 1, 512]⟩, subf (extractStridedSlice ⟨4, ![n, 1, 1, 512]⟩ ![0, 0, 1, 0] X s1) (extractStridedSlice ⟨4, ![n, 1, 1, 512]⟩ ![0, 0, 0, 0] X s0)⟩,
       ⟨⟨4, ![n, 1, 510, 512]⟩, subf (extractStridedSlice ⟨4, ![n, 1, 510, 512]⟩ ![0, 0, 2, 0] X s2) (extractStridedSlice ⟨4, ![n, 1, 510, 512]⟩ ![0, 0, 0, 0] X s0')⟩,
       ⟨⟨4, ![n, 1, 1, 512]⟩, subf (extractStridedSlice ⟨4, ![n, 1, 1, 512]⟩ ![0, 0, 511, 0] X s511) (extractStridedSlice ⟨4, ![n, 1, 1, 512]⟩ ![0, 0, 510, 0] X s510)⟩]
      hc (ix4 b 0 h w) 0 (by simp) ⟨4, ![n, 1, 1, 512]⟩ _ rfl rfl 0 rfl
      (ix4 b 0 ⟨0, by omega⟩ w) ?_ ?_).trans ?_
    · intro e he
      match e with
      | ⟨0, _⟩ => rfl
      | ⟨1, _⟩ => rfl
      | ⟨2, _⟩ => exact absurd rfl he
      | ⟨3, _⟩ => rfl
    · show 0 + 0 = h.val
      omega
    · refine (subf_apply _ _ _).trans ?_
      refine (congrArg₂ (· - ·)
        (extractStridedSlice_apply _ X s1 (ix4 b 0 ⟨0, by omega⟩ w) (ix4 b 0 ⟨1, by omega⟩ w) ?_)
        (extractStridedSlice_apply _ X s0 (ix4 b 0 ⟨0, by omega⟩ w) (ix4 b 0 ⟨0, by omega⟩ w) ?_)).trans ?_
      · intro e
        match e with
        | ⟨0, _⟩ => exact (Nat.zero_add _).symm
        | ⟨1, _⟩ => rfl
        | ⟨2, _⟩ => show 1 = 1 + 0; omega
        | ⟨3, _⟩ => exact (Nat.zero_add _).symm
      · intro e
        match e with
        | ⟨0, _⟩ => exact (Nat.zero_add _).symm
        | ⟨1, _⟩ => rfl
        | ⟨2, _⟩ => show 0 = 0 + 0; omega
        | ⟨3, _⟩ => exact (Nat.zero_add _).symm
      · unfold rowDiff planes
        rw [hu, hd]
  by_cases h1 : h.val = 511
  · have hu : up h = ⟨511, by omega⟩ := Fin.ext (by show min (h.val + 1) 511 = 511; omega)
    have hd : down h = ⟨510, by omega⟩ := Fin.ext (by show h.val - 1 = 510; omega)
    -- position 511: the last piece, at its only position
    refine (concatenate_apply_piece (t := Stack n) (2 : Fin 4)
      [⟨⟨4, ![n, 1, 1, 512]⟩, subf (extractStridedSlice ⟨4, ![n, 1, 1, 512]⟩ ![0, 0, 1, 0] X s1) (extractStridedSlice ⟨4, ![n, 1, 1, 512]⟩ ![0, 0, 0, 0] X s0)⟩,
       ⟨⟨4, ![n, 1, 510, 512]⟩, subf (extractStridedSlice ⟨4, ![n, 1, 510, 512]⟩ ![0, 0, 2, 0] X s2) (extractStridedSlice ⟨4, ![n, 1, 510, 512]⟩ ![0, 0, 0, 0] X s0')⟩,
       ⟨⟨4, ![n, 1, 1, 512]⟩, subf (extractStridedSlice ⟨4, ![n, 1, 1, 512]⟩ ![0, 0, 511, 0] X s511) (extractStridedSlice ⟨4, ![n, 1, 1, 512]⟩ ![0, 0, 510, 0] X s510)⟩]
      hc (ix4 b 0 h w) 2 (by simp) ⟨4, ![n, 1, 1, 512]⟩ _ rfl rfl 511 rfl
      (ix4 b 0 ⟨0, by omega⟩ w) ?_ ?_).trans ?_
    · intro e he
      match e with
      | ⟨0, _⟩ => rfl
      | ⟨1, _⟩ => rfl
      | ⟨2, _⟩ => exact absurd rfl he
      | ⟨3, _⟩ => rfl
    · show 511 + 0 = h.val
      omega
    · refine (subf_apply _ _ _).trans ?_
      refine (congrArg₂ (· - ·)
        (extractStridedSlice_apply _ X s511 (ix4 b 0 ⟨0, by omega⟩ w) (ix4 b 0 ⟨511, by omega⟩ w) ?_)
        (extractStridedSlice_apply _ X s510 (ix4 b 0 ⟨0, by omega⟩ w) (ix4 b 0 ⟨510, by omega⟩ w) ?_)).trans ?_
      · intro e
        match e with
        | ⟨0, _⟩ => exact (Nat.zero_add _).symm
        | ⟨1, _⟩ => rfl
        | ⟨2, _⟩ => show 511 = 511 + 0; omega
        | ⟨3, _⟩ => exact (Nat.zero_add _).symm
      · intro e
        match e with
        | ⟨0, _⟩ => exact (Nat.zero_add _).symm
        | ⟨1, _⟩ => rfl
        | ⟨2, _⟩ => show 510 = 510 + 0; omega
        | ⟨3, _⟩ => exact (Nat.zero_add _).symm
      · unfold rowDiff planes
        rw [hu, hd]
  · have hu : up h = ⟨h.val + 1, by omega⟩ := Fin.ext (by show min (h.val + 1) 511 = h.val + 1; omega)
    have hd : down h = ⟨h.val - 1, by omega⟩ := Fin.ext (by show h.val - 1 = h.val - 1; rfl)
    -- positions 1 to 510: the middle piece, one position earlier
    refine (concatenate_apply_piece (t := Stack n) (2 : Fin 4)
      [⟨⟨4, ![n, 1, 1, 512]⟩, subf (extractStridedSlice ⟨4, ![n, 1, 1, 512]⟩ ![0, 0, 1, 0] X s1) (extractStridedSlice ⟨4, ![n, 1, 1, 512]⟩ ![0, 0, 0, 0] X s0)⟩,
       ⟨⟨4, ![n, 1, 510, 512]⟩, subf (extractStridedSlice ⟨4, ![n, 1, 510, 512]⟩ ![0, 0, 2, 0] X s2) (extractStridedSlice ⟨4, ![n, 1, 510, 512]⟩ ![0, 0, 0, 0] X s0')⟩,
       ⟨⟨4, ![n, 1, 1, 512]⟩, subf (extractStridedSlice ⟨4, ![n, 1, 1, 512]⟩ ![0, 0, 511, 0] X s511) (extractStridedSlice ⟨4, ![n, 1, 1, 512]⟩ ![0, 0, 510, 0] X s510)⟩]
      hc (ix4 b 0 h w) 1 (by simp) ⟨4, ![n, 1, 510, 512]⟩ _ rfl rfl 1 rfl
      (ix4 b 0 ⟨h.val - 1, by omega⟩ w) ?_ ?_).trans ?_
    · intro e he
      match e with
      | ⟨0, _⟩ => rfl
      | ⟨1, _⟩ => rfl
      | ⟨2, _⟩ => exact absurd rfl he
      | ⟨3, _⟩ => rfl
    · show 1 + (h.val - 1) = h.val
      omega
    · refine (subf_apply _ _ _).trans ?_
      refine (congrArg₂ (· - ·)
        (extractStridedSlice_apply _ X s2 (ix4 b 0 ⟨h.val - 1, by omega⟩ w) (ix4 b 0 ⟨h.val + 1, by omega⟩ w) ?_)
        (extractStridedSlice_apply _ X s0' (ix4 b 0 ⟨h.val - 1, by omega⟩ w) (ix4 b 0 ⟨h.val - 1, by omega⟩ w) ?_)).trans ?_
      · intro e
        match e with
        | ⟨0, _⟩ => exact (Nat.zero_add _).symm
        | ⟨1, _⟩ => rfl
        | ⟨2, _⟩ => show h.val + 1 = 2 + (h.val - 1); omega
        | ⟨3, _⟩ => exact (Nat.zero_add _).symm
      · intro e
        match e with
        | ⟨0, _⟩ => exact (Nat.zero_add _).symm
        | ⟨1, _⟩ => rfl
        | ⟨2, _⟩ => show h.val - 1 = 0 + (h.val - 1); omega
        | ⟨3, _⟩ => exact (Nat.zero_add _).symm
      · unfold rowDiff planes
        rw [hu, hd]

/-- The three column-difference pieces laid end to end along the column axis, read at `(b, 0, h, w)`. -/
theorem colGrad_apply (n : ℕ) (X : FVec Ideal (Stack n) .f32)
    (s1 : (Stack n).Slices ![0, 0, 0, 1] ⟨4, ![n, 1, 512, 1]⟩) (s0 : (Stack n).Slices ![0, 0, 0, 0] ⟨4, ![n, 1, 512, 1]⟩)
    (s2 : (Stack n).Slices ![0, 0, 0, 2] ⟨4, ![n, 1, 512, 510]⟩) (s0' : (Stack n).Slices ![0, 0, 0, 0] ⟨4, ![n, 1, 512, 510]⟩)
    (s511 : (Stack n).Slices ![0, 0, 0, 511] ⟨4, ![n, 1, 512, 1]⟩) (s510 : (Stack n).Slices ![0, 0, 0, 510] ⟨4, ![n, 1, 512, 1]⟩)
    (hc : Shape.Concatenates [⟨4, ![n, 1, 512, 1]⟩, ⟨4, ![n, 1, 512, 510]⟩, ⟨4, ![n, 1, 512, 1]⟩] (Stack n) 3)
    (b : Fin n) (h w : Fin 512) :
    concatenate (Stack n) 3
      [⟨⟨4, ![n, 1, 512, 1]⟩, subf (extractStridedSlice ⟨4, ![n, 1, 512, 1]⟩ ![0, 0, 0, 1] X s1) (extractStridedSlice ⟨4, ![n, 1, 512, 1]⟩ ![0, 0, 0, 0] X s0)⟩,
       ⟨⟨4, ![n, 1, 512, 510]⟩, subf (extractStridedSlice ⟨4, ![n, 1, 512, 510]⟩ ![0, 0, 0, 2] X s2) (extractStridedSlice ⟨4, ![n, 1, 512, 510]⟩ ![0, 0, 0, 0] X s0')⟩,
       ⟨⟨4, ![n, 1, 512, 1]⟩, subf (extractStridedSlice ⟨4, ![n, 1, 512, 1]⟩ ![0, 0, 0, 511] X s511) (extractStridedSlice ⟨4, ![n, 1, 512, 1]⟩ ![0, 0, 0, 510] X s510)⟩]
      hc (ix4 b 0 h w)
    = colDiff (planes X) b h w := by
  have hv : w.val < 512 := w.isLt
  by_cases h0 : w.val = 0
  · have hu : up w = ⟨1, by omega⟩ := Fin.ext (by show min (w.val + 1) 511 = 1; omega)
    have hd : down w = ⟨0, by omega⟩ := Fin.ext (by show w.val - 1 = 0; omega)
    -- position 0: the first piece, at its only position
    refine (concatenate_apply_piece (t := Stack n) (3 : Fin 4)
      [⟨⟨4, ![n, 1, 512, 1]⟩, subf (extractStridedSlice ⟨4, ![n, 1, 512, 1]⟩ ![0, 0, 0, 1] X s1) (extractStridedSlice ⟨4, ![n, 1, 512, 1]⟩ ![0, 0, 0, 0] X s0)⟩,
       ⟨⟨4, ![n, 1, 512, 510]⟩, subf (extractStridedSlice ⟨4, ![n, 1, 512, 510]⟩ ![0, 0, 0, 2] X s2) (extractStridedSlice ⟨4, ![n, 1, 512, 510]⟩ ![0, 0, 0, 0] X s0')⟩,
       ⟨⟨4, ![n, 1, 512, 1]⟩, subf (extractStridedSlice ⟨4, ![n, 1, 512, 1]⟩ ![0, 0, 0, 511] X s511) (extractStridedSlice ⟨4, ![n, 1, 512, 1]⟩ ![0, 0, 0, 510] X s510)⟩]
      hc (ix4 b 0 h w) 0 (by simp) ⟨4, ![n, 1, 512, 1]⟩ _ rfl rfl 0 rfl
      (ix4 b 0 h ⟨0, by omega⟩) ?_ ?_).trans ?_
    · intro e he
      match e with
      | ⟨0, _⟩ => rfl
      | ⟨1, _⟩ => rfl
      | ⟨2, _⟩ => rfl
      | ⟨3, _⟩ => exact absurd rfl he
    · show 0 + 0 = w.val
      omega
    · refine (subf_apply _ _ _).trans ?_
      refine (congrArg₂ (· - ·)
        (extractStridedSlice_apply _ X s1 (ix4 b 0 h ⟨0, by omega⟩) (ix4 b 0 h ⟨1, by omega⟩) ?_)
        (extractStridedSlice_apply _ X s0 (ix4 b 0 h ⟨0, by omega⟩) (ix4 b 0 h ⟨0, by omega⟩) ?_)).trans ?_
      · intro e
        match e with
        | ⟨0, _⟩ => exact (Nat.zero_add _).symm
        | ⟨1, _⟩ => rfl
        | ⟨2, _⟩ => exact (Nat.zero_add _).symm
        | ⟨3, _⟩ => show 1 = 1 + 0; omega
      · intro e
        match e with
        | ⟨0, _⟩ => exact (Nat.zero_add _).symm
        | ⟨1, _⟩ => rfl
        | ⟨2, _⟩ => exact (Nat.zero_add _).symm
        | ⟨3, _⟩ => show 0 = 0 + 0; omega
      · unfold colDiff planes
        rw [hu, hd]
  by_cases h1 : w.val = 511
  · have hu : up w = ⟨511, by omega⟩ := Fin.ext (by show min (w.val + 1) 511 = 511; omega)
    have hd : down w = ⟨510, by omega⟩ := Fin.ext (by show w.val - 1 = 510; omega)
    -- position 511: the last piece, at its only position
    refine (concatenate_apply_piece (t := Stack n) (3 : Fin 4)
      [⟨⟨4, ![n, 1, 512, 1]⟩, subf (extractStridedSlice ⟨4, ![n, 1, 512, 1]⟩ ![0, 0, 0, 1] X s1) (extractStridedSlice ⟨4, ![n, 1, 512, 1]⟩ ![0, 0, 0, 0] X s0)⟩,
       ⟨⟨4, ![n, 1, 512, 510]⟩, subf (extractStridedSlice ⟨4, ![n, 1, 512, 510]⟩ ![0, 0, 0, 2] X s2) (extractStridedSlice ⟨4, ![n, 1, 512, 510]⟩ ![0, 0, 0, 0] X s0')⟩,
       ⟨⟨4, ![n, 1, 512, 1]⟩, subf (extractStridedSlice ⟨4, ![n, 1, 512, 1]⟩ ![0, 0, 0, 511] X s511) (extractStridedSlice ⟨4, ![n, 1, 512, 1]⟩ ![0, 0, 0, 510] X s510)⟩]
      hc (ix4 b 0 h w) 2 (by simp) ⟨4, ![n, 1, 512, 1]⟩ _ rfl rfl 511 rfl
      (ix4 b 0 h ⟨0, by omega⟩) ?_ ?_).trans ?_
    · intro e he
      match e with
      | ⟨0, _⟩ => rfl
      | ⟨1, _⟩ => rfl
      | ⟨2, _⟩ => rfl
      | ⟨3, _⟩ => exact absurd rfl he
    · show 511 + 0 = w.val
      omega
    · refine (subf_apply _ _ _).trans ?_
      refine (congrArg₂ (· - ·)
        (extractStridedSlice_apply _ X s511 (ix4 b 0 h ⟨0, by omega⟩) (ix4 b 0 h ⟨511, by omega⟩) ?_)
        (extractStridedSlice_apply _ X s510 (ix4 b 0 h ⟨0, by omega⟩) (ix4 b 0 h ⟨510, by omega⟩) ?_)).trans ?_
      · intro e
        match e with
        | ⟨0, _⟩ => exact (Nat.zero_add _).symm
        | ⟨1, _⟩ => rfl
        | ⟨2, _⟩ => exact (Nat.zero_add _).symm
        | ⟨3, _⟩ => show 511 = 511 + 0; omega
      · intro e
        match e with
        | ⟨0, _⟩ => exact (Nat.zero_add _).symm
        | ⟨1, _⟩ => rfl
        | ⟨2, _⟩ => exact (Nat.zero_add _).symm
        | ⟨3, _⟩ => show 510 = 510 + 0; omega
      · unfold colDiff planes
        rw [hu, hd]
  · have hu : up w = ⟨w.val + 1, by omega⟩ := Fin.ext (by show min (w.val + 1) 511 = w.val + 1; omega)
    have hd : down w = ⟨w.val - 1, by omega⟩ := Fin.ext (by show w.val - 1 = w.val - 1; rfl)
    -- positions 1 to 510: the middle piece, one position earlier
    refine (concatenate_apply_piece (t := Stack n) (3 : Fin 4)
      [⟨⟨4, ![n, 1, 512, 1]⟩, subf (extractStridedSlice ⟨4, ![n, 1, 512, 1]⟩ ![0, 0, 0, 1] X s1) (extractStridedSlice ⟨4, ![n, 1, 512, 1]⟩ ![0, 0, 0, 0] X s0)⟩,
       ⟨⟨4, ![n, 1, 512, 510]⟩, subf (extractStridedSlice ⟨4, ![n, 1, 512, 510]⟩ ![0, 0, 0, 2] X s2) (extractStridedSlice ⟨4, ![n, 1, 512, 510]⟩ ![0, 0, 0, 0] X s0')⟩,
       ⟨⟨4, ![n, 1, 512, 1]⟩, subf (extractStridedSlice ⟨4, ![n, 1, 512, 1]⟩ ![0, 0, 0, 511] X s511) (extractStridedSlice ⟨4, ![n, 1, 512, 1]⟩ ![0, 0, 0, 510] X s510)⟩]
      hc (ix4 b 0 h w) 1 (by simp) ⟨4, ![n, 1, 512, 510]⟩ _ rfl rfl 1 rfl
      (ix4 b 0 h ⟨w.val - 1, by omega⟩) ?_ ?_).trans ?_
    · intro e he
      match e with
      | ⟨0, _⟩ => rfl
      | ⟨1, _⟩ => rfl
      | ⟨2, _⟩ => rfl
      | ⟨3, _⟩ => exact absurd rfl he
    · show 1 + (w.val - 1) = w.val
      omega
    · refine (subf_apply _ _ _).trans ?_
      refine (congrArg₂ (· - ·)
        (extractStridedSlice_apply _ X s2 (ix4 b 0 h ⟨w.val - 1, by omega⟩) (ix4 b 0 h ⟨w.val + 1, by omega⟩) ?_)
        (extractStridedSlice_apply _ X s0' (ix4 b 0 h ⟨w.val - 1, by omega⟩) (ix4 b 0 h ⟨w.val - 1, by omega⟩) ?_)).trans ?_
      · intro e
        match e with
        | ⟨0, _⟩ => exact (Nat.zero_add _).symm
        | ⟨1, _⟩ => rfl
        | ⟨2, _⟩ => exact (Nat.zero_add _).symm
        | ⟨3, _⟩ => show w.val + 1 = 2 + (w.val - 1); omega
      · intro e
        match e with
        | ⟨0, _⟩ => exact (Nat.zero_add _).symm
        | ⟨1, _⟩ => rfl
        | ⟨2, _⟩ => exact (Nat.zero_add _).symm
        | ⟨3, _⟩ => show w.val - 1 = 0 + (w.val - 1); omega
      · unfold colDiff planes
        rw [hu, hd]

end Cert.NGF

end
-- ==== Proof.KernelBlock.lean ====
/-
  The kernel body's arithmetic on one block of two planes, read at the extended reals: the accumulation step adds
  the block's sum of the per-pixel quantity to what the accumulator held; the last step turns the running sum into
  one minus its quotient by the pixel count; the reset is zero.
-/
import proofs.«171857_j40200893891260_1_alg».proof.Proof.Stencil
import proofs.«171857_j40200893891260_1_alg».proof.Proof.Gen.KernelIdeal.Skeleton

noncomputable section

namespace Cert.KernelIdeal.BlockValue

open Idealize.ShloMosaic Idealize.ShloMosaic.ValueIdx
open Cert.KernelIdeal Cert.KernelIdeal.Gen Cert.NGF
open scoped BigOperators

/-- A unit-normalised component read at an index: the component over the root of the squares plus the stabiliser. -/
private theorem unit_apply {s : Shape} (g r c : FVec Ideal s .f32) (i : s.Idx) {ga a b : EReal}
    (hg : g i = ga) (hr : r i = a) (hc : c i = b) :
    divf g (sqrt (addf (addf (mulf r r) (mulf c c)) (broadcast s (Scalar.ofBits .f32 0x2EDBE6FF#32)))) i
      = Ideal.div ga (Ideal.sqrt (a * a + b * b + eps)) := by
  subst hg hr hc
  rfl

/-- The squared inner product of the first stack's unit vector (given) with the second's (normalised here), at an index. -/
private theorem dotSq_apply {s : Shape} (u0 u1 r c : FVec Ideal s .f32) (i : s.Idx) {a0 b0 a1 b1 : EReal}
    (h0 : u0 i = Ideal.div a0 (Ideal.sqrt (a0 * a0 + b0 * b0 + eps)))
    (h1 : u1 i = Ideal.div b0 (Ideal.sqrt (a0 * a0 + b0 * b0 + eps)))
    (hr : r i = a1) (hc : c i = b1) :
    mulf
      (addf
        (mulf u0 (divf r (sqrt (addf (addf (mulf r r) (mulf c c)) (broadcast s (Scalar.ofBits .f32 0x2EDBE6FF#32))))))
        (mulf u1 (divf c (sqrt (addf (addf (mulf r r) (mulf c c)) (broadcast s (Scalar.ofBits .f32 0x2EDBE6FF#32)))))))
      (addf
        (mulf u0 (divf r (sqrt (addf (addf (mulf r r) (mulf c c)) (broadcast s (Scalar.ofBits .f32 0x2EDBE6FF#32))))))
        (mulf u1 (divf c (sqrt (addf (addf (mulf r r) (mulf c c)) (broadcast s (Scalar.ofBits .f32 0x2EDBE6FF#32))))))) i
      = unitDotSq a0 b0 a1 b1 := by
  have e0 := unit_apply r r c i hr hr hc
  have e1 := unit_apply c r c i hc hr hc
  show (u0 i * _ + u1 i * _) * (u0 i * _ + u1 i * _) = _
  rw [e0, e1, h0, h1]
  rfl

/-- A sum over every index of a reshaped array is the sum over every index of the array. -/
private theorem sum_shapeCast {s t : Shape} (v : s.Idx → EReal) (h : s.ShapeCasts t) :
    ∑ i : t.Idx, shapeCast t v h i = ∑ j : s.Idx, v j :=
  Equiv.sum_comp (Shape.reshapeEquiv h) v

/-- The one number of a one-element array, carried to a one-by-one block and read anywhere. -/
private theorem carry_apply (m : S1.Idx → EReal) (y : S1x1.Idx) :
    broadcast S1x1 (extractAt ![0, 0, 0, 0, 0] (shapeCast S1x1x1x1x1 m shapeCasts_S1_S1x1x1x1x1) inpos_S1x1x1x1x1_p0_0_0_0_0) y
      = m (Shape.reshapeEquiv shapeCasts_S1_S1x1x1x1x1 fun a => ⟨![0, 0, 0, 0, 0] a, inpos_S1x1x1x1x1_p0_0_0_0_0 a⟩) := rfl

/-- The block's row gradient at a pixel is the clamped row difference. -/
private theorem pay4_apply (x : Vec Ideal S2x1x512x512 .f32) (b : Fin 2) (h w : Fin 512) :
    k0_pay4 (F := Ideal) x (ix4 b 0 h w) = rowDiff (planes x) b h w := by
  unfold k0_pay4
  exact rowGrad_apply 2 x _ _ _ _ _ _ _ b h w

/-- The block's column gradient at a pixel is the clamped column difference. -/
private theorem pay5_apply (x : Vec Ideal S2x1x512x512 .f32) (b : Fin 2) (h w : Fin 512) :
    k0_pay5 (F := Ideal) x (ix4 b 0 h w) = colDiff (planes x) b h w := by
  unfold k0_pay5
  exact colGrad_apply 2 x _ _ _ _ _ _ _ b h w

/-- The second block's row gradient, the same text over the second block. -/
private theorem pay9_apply (x : Vec Ideal S2x1x512x512 .f32) (b : Fin 2) (h w : Fin 512) :
    k0_pay9 (F := Ideal) x (ix4 b 0 h w) = rowDiff (planes x) b h w := by
  unfold k0_pay9
  exact rowGrad_apply 2 x _ _ _ _ _ _ _ b h w

/-- The first block's unit row component at a pixel. -/
private theorem pay7_apply (x : Vec Ideal S2x1x512x512 .f32) (b : Fin 2) (h w : Fin 512) :
    k0_pay7 (F := Ideal) x (ix4 b 0 h w)
      = Ideal.div (rowDiff (planes x) b h w)
          (Ideal.sqrt (rowDiff (planes x) b h w * rowDiff (planes x) b h w
            + colDiff (planes x) b h w * colDiff (planes x) b h w + eps)) := by
  unfold k0_pay7 k0_pay6
  exact unit_apply _ _ _ _ (pay4_apply x b h w) (pay4_apply x b h w) (pay5_apply x b h w)

/-- The first block's unit column component at a pixel. -/
private theorem pay8_apply (x : Vec Ideal S2x1x512x512 .f32) (b : Fin 2) (h w : Fin 512) :
    k0_pay8 (F := Ideal) x (ix4 b 0 h w)
      = Ideal.div (colDiff (planes x) b h w)
          (Ideal.sqrt (rowDiff (planes x) b h w * rowDiff (planes x) b h w
            + colDiff (planes x) b h w * colDiff (planes x) b h w + eps)) := by
  unfold k0_pay8 k0_pay6
  exact unit_apply _ _ _ _ (pay5_apply x b h w) (pay4_apply x b h w) (pay5_apply x b h w)

/-- The accumulation step: the accumulator found plus the block's sum. -/
theorem accum_eq (x0 x1 : Vec Ideal S2x1x512x512 .f32) (acc : Vec Ideal S1x1 .f32) :
    k0_pay1 (F := Ideal) x1 (k0_pay7 x0) (k0_pay8 x0) (k0_pay9 x1) (k0_pay10 x1) (k0_pay11 x1) acc
      = fun y => acc y + planeSum (planes x0) (planes x1) := by
  funext y
  unfold k0_pay1
  refine (addf_apply _ _ y).trans ?_
  refine congrArg₂ (· + ·) (congrFun (shapeCast_self acc _) y) ?_
  refine (carry_apply _ y).trans ?_
  refine (Ideal.multiReduction_add_total _ _ _ (by decide) _ _ _).trans ?_
  refine (sum_shapeCast _ _).trans ?_
  refine (sum_stack (n := 2) _).trans ?_
  unfold planeSum
  refine Finset.sum_congr rfl fun b _ => Finset.sum_congr rfl fun h _ => Finset.sum_congr rfl fun w _ => ?_
  unfold pix
  refine dotSq_apply _ _ _ _ _ (pay7_apply x0 b h w) (pay8_apply x0 b h w) (pay9_apply x1 b h w) ?_
  unfold k0_pay10 k0_pay11
  exact colGrad_apply 2 x1 _ _ _ _ _ _ _ b h w

/-- The last step: one minus the running sum over the pixel count. -/
theorem finish_eq (acc : Vec Ideal S1x1 .f32) :
    k0_pay2 (F := Ideal) acc = fun y => one - Ideal.div (acc y) count := by
  funext y
  have e : shapeCast S1x1 acc shapeCasts_S1x1_S1x1 y = acc y := congrFun (shapeCast_self acc _) y
  unfold k0_pay2
  show one - Ideal.div (shapeCast S1x1 acc shapeCasts_S1x1_S1x1 y) count = _
  rw [e]

/-- The reset stores zero. -/
theorem reset_eq : (k0_pay3 (F := Ideal)) = fun _ => (0 : EReal) := by
  funext y
  unfold k0_pay3
  exact Ideal.ofBits_zero_f32

end Cert.KernelIdeal.BlockValue

end
-- ==== Proof.KernelAcc.lean ====
/-
  The accumulator across the grid, over the extended reals. Write `p t` for the sum of the per-pixel quantity over
  the two planes of block `t`. After point 0 the accumulator holds `0 + p 0`; after a middle point `n + 1` what it
  held after point `n` plus `p (n + 1)`; the last point adds `p 31` and then replaces the running sum `s` by
  `1 - s / 2 ^ 24`. By induction on the point, the running sum after point `n` is `∑ t ≤ n, p t` (adding the
  extended real zero changes nothing).
-/
import proofs.«171857_j40200893891260_1_alg».proof.Proof.KernelPieces
import proofs.«171857_j40200893891260_1_alg».proof.Proof.KernelBlock

noncomputable section

open Idealize.ShloMosaic Idealize.ShloMosaic.TcCoe Idealize.SL.Sem
open scoped BigOperators

namespace Cert.KernelIdeal.Acc

open Cert.KernelIdeal Cert.KernelIdeal.Gen Cert.NGF

variable (m : (ℓ : Loc nD τ sig) → Buf (Elt Ideal) ℓ)

/-- The first input's block at point `t`, at its literal type. -/
abbrev blk0 (c : Dev nD) (t : Fin cfg0.N) : Vec Ideal S2x1x512x512 .f32 := iblk m c 0 t
/-- The second input's block at point `t`. -/
abbrev blk1 (c : Dev nD) (t : Fin cfg0.N) : Vec Ideal S2x1x512x512 .f32 := iblk m c 1 t

/-- The accumulation step over a reset accumulator: zero plus the block's sum. -/
theorem accum_reset (x0 x1 : Vec Ideal S2x1x512x512 .f32) :
    Pieces.accum (F := Ideal) x0 x1 (k0_pay3 (F := Ideal)) = fun _ => 0 + planeSum (planes x0) (planes x1) := by
  show k0_pay1 (F := Ideal) x1 (k0_pay7 x0) (k0_pay8 x0) (k0_pay9 x1) (k0_pay10 x1) (k0_pay11 x1) (k0_pay3 (F := Ideal)) = _
  rw [BlockValue.reset_eq]
  exact BlockValue.accum_eq x0 x1 (fun _ => 0)

/-- The accumulation step over an accumulator holding `a` at its one position. -/
theorem accum_found (x0 x1 : Vec Ideal S2x1x512x512 .f32) (a : EReal) :
    Pieces.accum (F := Ideal) x0 x1 (fun _ => a) = fun _ => a + planeSum (planes x0) (planes x1) :=
  BlockValue.accum_eq x0 x1 (fun _ => a)

/-- The finishing step over it. -/
theorem finish_found (x0 x1 : Vec Ideal S2x1x512x512 .f32) (a : EReal) :
    k0_pay2 (F := Ideal) (Pieces.accum (F := Ideal) x0 x1 (fun _ => a))
      = fun _ => one - Ideal.div (a + planeSum (planes x0) (planes x1)) count := by
  rw [accum_found]
  exact BlockValue.finish_eq _

/-- Block `t`'s sum of the per-pixel quantity; zero past the grid. -/
def part (c : Dev nD) (t : ℕ) : EReal :=
  if h : t < cfg0.N then planeSum (planes (blk0 m c ⟨t, h⟩)) (planes (blk1 m c ⟨t, h⟩)) else 0

theorem part_of_lt (c : Dev nD) (t : ℕ) (h : t < cfg0.N) :
    part m c t = planeSum (planes (blk0 m c ⟨t, h⟩)) (planes (blk1 m c ⟨t, h⟩)) := dif_pos h

/-- The running sum after point `n`, in the order the kernel adds. -/
def running (c : Dev nD) : ℕ → EReal
  | 0 => 0 + part m c 0
  | n + 1 => running c n + part m c (n + 1)

/-- It is the sum of the blocks' sums up to `n`. -/
theorem running_eq_sum (c : Dev nD) (n : ℕ) : running m c n = ∑ t ∈ Finset.range (n + 1), part m c t := by
  induction n with
  | zero => simp [running]
  | succ n ih => rw [running, ih, Finset.sum_range_succ (fun t => part m c t) (n + 1)]

/-- Before the last point the accumulator holds the running sum. -/
theorem outsAt_mid (c : Dev nD) : ∀ (n : ℕ) (h : n < cfg0.N), n < 31 → outsAt0 m c n h = fun _ => running m c n
  | 0, h, _ => by
    refine (outsAt0_A m c ⟨0, h⟩ (Nat.zero_mod 32) (by dsimp only; omega)).trans ?_
    refine (Pieces.out_A (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) _ _ (blk0 m c ⟨0, h⟩) (blk1 m c ⟨0, h⟩)).trans ?_
    refine (accum_reset (blk0 m c ⟨0, h⟩) (blk1 m c ⟨0, h⟩)).trans ?_
    funext _
    show _ = 0 + part m c 0
    rw [part_of_lt m c 0 h]
  | n + 1, h, hlt => by
    have h0 : ¬(⟨n + 1, h⟩ : Fin cfg0.N).val % 32 = 0 := by dsimp only; omega
    have h1 : ¬(⟨n + 1, h⟩ : Fin cfg0.N).val % 32 = 31 := by dsimp only; omega
    refine (outsAt0_B m c ⟨n + 1, h⟩ h0 h1).trans ?_
    refine (Pieces.out_B (F := Ideal) c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) _ _ (blk0 m c ⟨n + 1, h⟩) (blk1 m c ⟨n + 1, h⟩)
      (outsAt0 m c n (Nat.lt_of_succ_lt h))).trans ?_
    rw [outsAt_mid c n (Nat.lt_of_succ_lt h) (by omega)]
    refine (accum_found (blk0 m c ⟨n + 1, h⟩) (blk1 m c ⟨n + 1, h⟩) (running m c n)).trans ?_
    funext _
    show _ = running m c n + part m c (n + 1)
    rw [part_of_lt m c (n + 1) h]

/-- After the last point it holds one minus the total over the pixel count. -/
theorem outsAt_last (c : Dev nD) (h : 31 < cfg0.N) :
    outsAt0 m c 31 h = fun _ => one - Ideal.div (running m c 31) count := by
  have h0 : ¬(⟨31, h⟩ : Fin cfg0.N).val % 32 = 0 := by dsimp only; omega
  have h1 : (⟨31, h⟩ : Fin cfg0.N).val % 32 = 31 := rfl
  refine (outsAt0_C m c ⟨31, h⟩ h0 h1).trans ?_
  refine (Pieces.out_C (F := Ideal) c (grid0.coords ⟨31, h⟩) (ms0_0 ⟨31, h⟩) (hs0_0 ⟨31, h⟩) (ms0_1 ⟨31, h⟩) (hs0_1 ⟨31, h⟩)
    (ms0_2 ⟨31, h⟩) (hs0_2 ⟨31, h⟩) _ _ (blk0 m c ⟨31, h⟩) (blk1 m c ⟨31, h⟩)
    (outsAt0 m c 30 (Nat.lt_of_succ_lt h))).trans ?_
  rw [outsAt_mid m c 30 (Nat.lt_of_succ_lt h) (by decide)]
  refine (finish_found (blk0 m c ⟨31, h⟩) (blk1 m c ⟨31, h⟩) (running m c 30)).trans ?_
  funext _
  show _ = one - Ideal.div (running m c 30 + part m c 31) count
  rw [part_of_lt m c 31 h]

end Cert.KernelIdeal.Acc

end
-- ==== Proof.KernelArray.lean ====
/-
  From the accumulator to the program's result. A block of two planes at grid point `t` is planes `2 t` and
  `2 t + 1` of the argument stack, and the per-pixel quantity at a pixel only looks at that pixel's own plane, so
  block `t`'s sum is the sum over those two planes of the whole stacks' per-pixel quantity; the thirty-two blocks'
  sums add up to the sum over all sixty-four planes. The accumulator is written back once, after the last point,
  and its one block is the whole (1,1) result array; the reshape to a scalar after the region keeps the value.
-/
import proofs.«171857_j40200893891260_1_alg».proof.Proof.KernelAcc

noncomputable section

open Idealize.ShloMosaic Idealize.ShloMosaic.TcCoe Idealize.SL.Sem Idealize.ShloMosaic.ValueIdx
open Idealize.ShloMosaic.Pipeline (Dat)
open scoped BigOperators

namespace Cert.NGF

/-- The per-pixel quantity at a pixel depends on the two stacks only through that pixel's plane. -/
theorem pix_plane {n n' : ℕ} (x0 x1 : Planes n) (y0 y1 : Planes n') (b : Fin n) (b' : Fin n')
    (e0 : x0 b = y0 b') (e1 : x1 b = y1 b') (h w : Fin 512) : pix x0 x1 b h w = pix y0 y1 b' h w := by
  unfold pix rowDiff colDiff
  rw [e0, e1]

/-- A sum over sixty-four planes, two at a time. -/
theorem sum_pairs (g : Fin 64 → EReal) :
    ∑ b : Fin 64, g b = ∑ t : Fin 32, ∑ b' : Fin 2, g ⟨2 * t.val + b'.val, by omega⟩ := by
  rw [← Fintype.sum_prod_type']
  refine (Fintype.sum_equiv (finProdFinEquiv (m := 32) (n := 2)) _ g fun p => ?_).symm
  exact congrArg g (Fin.ext (by simp [finProdFinEquiv]; omega))

end Cert.NGF

namespace Cert.KernelIdeal.Arr

open Cert.KernelIdeal Cert.KernelIdeal.Gen Cert.KernelIdeal.Acc Cert.NGF

variable (m : (ℓ : Loc nD τ sig) → Buf (Elt Ideal) ℓ) (ρ : Dev nD → PrngReg)

/-- The first argument stack, as planes. -/
abbrev arg0 (c : Dev nD) : Planes 64 := planes (m ((c.tc : Thread nD τ).loc main_arg0))
/-- The second argument stack. -/
abbrev arg1 (c : Dev nD) : Planes 64 := planes (m ((c.tc : Thread nD τ).loc main_arg1))

/-- The two input windows move along the plane axis only, two planes a point. -/
theorem idx0 : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, win0_0.index t (0 : Fin 4) = t.val ∧ win0_0.index t (1 : Fin 4) = 0
    ∧ win0_0.index t (2 : Fin 4) = 0 ∧ win0_0.index t (3 : Fin 4) = 0)
theorem idx1 : ∀ t : Fin cfg0.N, win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, win0_1.index t (0 : Fin 4) = t.val ∧ win0_1.index t (1 : Fin 4) = 0
    ∧ win0_1.index t (2 : Fin 4) = 0 ∧ win0_1.index t (3 : Fin 4) = 0)

/-- Plane `b'` of the first input's block at point `t` is plane `2 t + b'` of the first argument. -/
theorem blk0_plane (c : Dev nD) (t : Fin cfg0.N) (b' : Fin 2) (hb : 2 * t.val + b'.val < 64) :
    planes (blk0 m c t) b' = arg0 m c ⟨2 * t.val + b'.val, hb⟩ := by
  funext h w
  show iblk m c 0 t (ix4 b' 0 h w) = m ((c.tc : Thread nD τ).loc main_arg0) (ix4 ⟨2 * t.val + b'.val, hb⟩ 0 h w)
  unfold iblk
  rw [View.read_apply]
  show m ((c.tc : Thread nD τ).loc main_arg0) _ = _
  refine congrArg _ (funext fun a => Fin.ext ?_)
  obtain ⟨i0, i1, i2, i3⟩ := idx0 t
  match a with
  | ⟨0, _⟩ => show win0_0.index t 0 * 2 + 1 * b'.val = 2 * t.val + b'.val; rw [i0]; omega
  | ⟨1, _⟩ => show win0_0.index t 1 * 1 + 1 * 0 = 0; rw [i1]
  | ⟨2, _⟩ => show win0_0.index t 2 * 512 + 1 * h.val = h.val; rw [i2]; omega
  | ⟨3, _⟩ => show win0_0.index t 3 * 512 + 1 * w.val = w.val; rw [i3]; omega

/-- The same for the second input. -/
theorem blk1_plane (c : Dev nD) (t : Fin cfg0.N) (b' : Fin 2) (hb : 2 * t.val + b'.val < 64) :
    planes (blk1 m c t) b' = arg1 m c ⟨2 * t.val + b'.val, hb⟩ := by
  funext h w
  show iblk m c 1 t (ix4 b' 0 h w) = m ((c.tc : Thread nD τ).loc main_arg1) (ix4 ⟨2 * t.val + b'.val, hb⟩ 0 h w)
  unfold iblk
  rw [View.read_apply]
  show m ((c.tc : Thread nD τ).loc main_arg1) _ = _
  refine congrArg _ (funext fun a => Fin.ext ?_)
  obtain ⟨i0, i1, i2, i3⟩ := idx1 t
  match a with
  | ⟨0, _⟩ => show win0_1.index t 0 * 2 + 1 * b'.val = 2 * t.val + b'.val; rw [i0]; omega
  | ⟨1, _⟩ => show win0_1.index t 1 * 1 + 1 * 0 = 0; rw [i1]
  | ⟨2, _⟩ => show win0_1.index t 2 * 512 + 1 * h.val = h.val; rw [i2]; omega
  | ⟨3, _⟩ => show win0_1.index t 3 * 512 + 1 * w.val = w.val; rw [i3]; omega

/-- Block `t`'s sum is the whole stacks' per-pixel quantity summed over planes `2 t` and `2 t + 1`. -/
theorem part_eq (c : Dev nD) (t : Fin 32) :
    part m c t.val = ∑ b' : Fin 2, ∑ h : Fin 512, ∑ w : Fin 512,
      pix (arg0 m c) (arg1 m c) ⟨2 * t.val + b'.val, by omega⟩ h w := by
  have ht : t.val < cfg0.N := lt_of_lt_of_eq t.isLt N_0.symm
  rw [part_of_lt m c t.val ht]
  unfold planeSum
  refine Finset.sum_congr rfl fun b' _ => Finset.sum_congr rfl fun h _ => Finset.sum_congr rfl fun w _ => ?_
  have hb : 2 * t.val + b'.val < 64 := by omega
  exact pix_plane _ _ _ _ b' ⟨2 * t.val + b'.val, hb⟩
    (blk0_plane m c ⟨t.val, ht⟩ b' hb) (blk1_plane m c ⟨t.val, ht⟩ b' hb) h w

/-- The running sum after the last point is the sum over every pixel of every plane. -/
theorem total_eq (c : Dev nD) : running m c 31 = planeSum (arg0 m c) (arg1 m c) := by
  rw [running_eq_sum, Finset.sum_range (fun t => part m c t)]
  unfold planeSum
  rw [sum_pairs]
  exact Finset.sum_congr rfl fun t _ => part_eq m c t

/-- What the result array ends holding. -/
abbrev result (c : Dev nD) : Buf (Elt Ideal) ((c.tc : Thread nD τ).loc main_v0) :=
  fun _ => loss (arg0 m c) (arg1 m c)

theorem last_lt : 31 < cfg0.N := lt_of_lt_of_eq (by decide) N_0.symm

/-- The one write-back, after the last point, writes it. -/
theorem flushed_eq (c : Dev nD) (t : Fin cfg0.N) (hf : (cfg0.win 2).flush t = true) :
    (dats m 0 c).flushed 2 t = ((cfg0.win 2).blk t).view.read (Elt Ideal) (result m c) := by
  have hN : cfg0.N = 32 := N_0
  have h31 : t.val = 31 := by have := (flush0_2 t).mp hf; have := t.isLt; omega
  obtain rfl : t = ⟨31, last_lt⟩ := Fin.ext h31
  show (cfg0.win 2).cut (grid0.coords ⟨31, last_lt⟩) ((dats m 0 c).after 2 ⟨31, last_lt⟩) = _
  rw [after0_2, outsAt_last m c last_lt, total_eq]
  funext x
  rw [View.read_apply]
  rfl

/-- So the result array ends at the loss. -/
theorem final (c : Dev nD) : (dats m 0 c).arrAt 2 cfg0.N = result m c :=
  (dats m 0 c).arrAt_eq_of_cover 2 (result m c) (flushed_eq m c) fun i =>
    ⟨⟨31, last_lt⟩, (flush0_2 ⟨31, last_lt⟩).mpr rfl, by
      show i ∈ ((View.whole main_v0).slice (win0_2.rect ⟨31, last_lt⟩)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index ⟨31, last_lt⟩ 0 * win0_2.size 0 ≤ (i 0 : Nat) ∧ (i 0 : Nat) < win0_2.index ⟨31, last_lt⟩ 0 * win0_2.size 0 + win0_2.xsize (grid0.coords ⟨31, last_lt⟩) 0
        rw [show win0_2.index ⟨31, last_lt⟩ 0 * win0_2.size 0 = 0 from by decide +kernel, show win0_2.xsize (grid0.coords ⟨31, last_lt⟩) 0 = 1 from by decide +kernel]; omega
      | ⟨1, _⟩ =>
        show win0_2.index ⟨31, last_lt⟩ 1 * win0_2.size 1 ≤ (i 1 : Nat) ∧ (i 1 : Nat) < win0_2.index ⟨31, last_lt⟩ 1 * win0_2.size 1 + win0_2.xsize (grid0.coords ⟨31, last_lt⟩) 1
        rw [show win0_2.index ⟨31, last_lt⟩ 1 * win0_2.size 1 = 0 from by decide +kernel, show win0_2.xsize (grid0.coords ⟨31, last_lt⟩) 1 = 1 from by decide +kernel]; omega⟩

/-- The scalar the program returns: the (1,1) array reshaped. -/
theorem tail_eq (c : Dev nD) :
    Pipeline.afterTail₀ cfgs (dats m) 0 (V0 m) [hostOps1] c main_v1 = fun _ => loss (arg0 m c) (arg1 m c) := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0)
      = result m c := (Pipeline.withArrays_arr spec0 launch0.win.arr_inj c _ _ 2).trans (final m c)
  funext i
  rw [e]
  rfl

/-- The idealized kernel's run, read: the result at the loss of the argument stacks, the arguments unchanged. -/
theorem run : θ_run defs (onTc (τ := τ) (main (F := Ideal))) ⟨m, fun _ => 0, ρ⟩ fun r => ∀ c : Dev nD,
      r.2.mem ((c.tc : Thread nD τ).loc main_v1) = (fun _ => loss (arg0 m c) (arg1 m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v1 (Pipeline.mem_restRefs_of main_v1 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Arr

end
-- ==== Proof.RefValue.lean ====
/-
  The reference, read at an index: its squared inner product of unit gradients at pixel `(b, h, w)` is the shared
  per-pixel quantity of the two argument stacks, and its result is their loss.
-/
import proofs.«171857_j40200893891260_1_alg».proof.Proof.Stencil
import proofs.«171857_j40200893891260_1_alg».proof.Proof.Gen.ReferenceIdeal.Read

noncomputable section

namespace Cert.ReferenceIdeal.RefValue

open Idealize.ShloMosaic Idealize.ShloMosaic.ValueIdx
open Cert.ReferenceIdeal Cert.ReferenceIdeal.Read Cert.NGF
open scoped BigOperators

/-- The row gradient of the first stack at a pixel. -/
private theorem rowGrad0 (x : FVec Ideal S64x1x512x512 .f32) (b : Fin 64) (h w : Fin 512) :
    val_main_v9 (F := Ideal) x (ix4 b 0 h w) = rowDiff (planes x) b h w := by
  unfold val_main_v9 val_main_v2 val_main_v5 val_main_v8 val_main_v0 val_main_v1 val_main_v3 val_main_v4 val_main_v6 val_main_v7
  exact rowGrad_apply 64 x _ _ _ _ _ _ _ b h w

/-- The column gradient of the first stack at a pixel. -/
private theorem colGrad0 (x : FVec Ideal S64x1x512x512 .f32) (b : Fin 64) (h w : Fin 512) :
    val_main_v19 (F := Ideal) x (ix4 b 0 h w) = colDiff (planes x) b h w := by
  unfold val_main_v19 val_main_v12 val_main_v15 val_main_v18 val_main_v10 val_main_v11 val_main_v13 val_main_v14 val_main_v16 val_main_v17
  exact colGrad_apply 64 x _ _ _ _ _ _ _ b h w

/-- The stacked gradient pair of the first stack at a pixel: its first component is the row gradient. -/
private theorem pair0_row (x : FVec Ideal S64x1x512x512 .f32) (b : Fin 64) (h w : Fin 512) :
    val_main_v22 (F := Ideal) x (ix5 b 0 h w 0) = rowDiff (planes x) b h w := by
  unfold val_main_v22
  refine (concatenate_pair_apply_left (t := S64x1x512x512x2) (s₁ := S64x1x512x512x1) (s₂ := S64x1x512x512x1) 4 _ _ _
    (ix5 b (0 : Fin 1) h w (0 : Fin 2)) rfl (ix5 b (0 : Fin 1) h w (0 : Fin 1)) (fun a => ?_)).trans ?_
  · match a with | ⟨0, _⟩ => rfl | ⟨1, _⟩ => rfl | ⟨2, _⟩ => rfl | ⟨3, _⟩ => rfl | ⟨4, _⟩ => rfl
  · refine (val_main_v20_apply (F := Ideal) x _).trans ?_
    refine (congrArg (val_main_v9 (F := Ideal) x) ?_).trans (rowGrad0 x b h w)
    funext a
    match a with | ⟨0, _⟩ => rfl | ⟨1, _⟩ => rfl | ⟨2, _⟩ => rfl | ⟨3, _⟩ => rfl

/-- Its second component is the column gradient. -/
private theorem pair0_col (x : FVec Ideal S64x1x512x512 .f32) (b : Fin 64) (h w : Fin 512) :
    val_main_v22 (F := Ideal) x (ix5 b 0 h w 1) = colDiff (planes x) b h w := by
  unfold val_main_v22
  refine (concatenate_pair_apply_right (t := S64x1x512x512x2) (s₁ := S64x1x512x512x1) (s₂ := S64x1x512x512x1) 4 _ _ _
    (ix5 b (0 : Fin 1) h w (1 : Fin 2)) rfl rfl (ix5 b (0 : Fin 1) h w (0 : Fin 1)) (fun a ha => ?_) rfl).trans ?_
  · match a with | ⟨0, _⟩ => rfl | ⟨1, _⟩ => rfl | ⟨2, _⟩ => rfl | ⟨3, _⟩ => rfl | ⟨4, _⟩ => exact absurd rfl ha
  · refine (val_main_v21_apply (F := Ideal) x _).trans ?_
    refine (congrArg (val_main_v19 (F := Ideal) x) ?_).trans (colGrad0 x b h w)
    funext a
    match a with | ⟨0, _⟩ => rfl | ⟨1, _⟩ => rfl | ⟨2, _⟩ => rfl | ⟨3, _⟩ => rfl

/-- The squared length of the first stack's gradient at a pixel. -/
private theorem normSq0 (x : FVec Ideal S64x1x512x512 .f32) (b : Fin 64) (h w : Fin 512) :
    val_main_v24 (F := Ideal) x (ix4 b 0 h w)
      = rowDiff (planes x) b h w * rowDiff (planes x) b h w + colDiff (planes x) b h w * colDiff (planes x) b h w := by
  have e0 : idx_main_v24 (ix4 b (0 : Fin 1) h w) (0 : Fin 2) = ix5 b (0 : Fin 1) h w (0 : Fin 2) :=
    funext fun a => by match a with | ⟨0, _⟩ => rfl | ⟨1, _⟩ => rfl | ⟨2, _⟩ => rfl | ⟨3, _⟩ => rfl | ⟨4, _⟩ => rfl
  have e1 : idx_main_v24 (ix4 b (0 : Fin 1) h w) (1 : Fin 2) = ix5 b (0 : Fin 1) h w (1 : Fin 2) :=
    funext fun a => by match a with | ⟨0, _⟩ => rfl | ⟨1, _⟩ => rfl | ⟨2, _⟩ => rfl | ⟨3, _⟩ => rfl | ⟨4, _⟩ => rfl
  have h0 : val_main_v22 (F := Ideal) x (idx_main_v24 (ix4 b (0 : Fin 1) h w) (0 : Fin 2)) = rowDiff (planes x) b h w :=
    (congrArg (val_main_v22 (F := Ideal) x) e0).trans (pair0_row x b h w)
  have h1 : val_main_v22 (F := Ideal) x (idx_main_v24 (ix4 b (0 : Fin 1) h w) (1 : Fin 2)) = colDiff (planes x) b h w :=
    (congrArg (val_main_v22 (F := Ideal) x) e1).trans (pair0_col x b h w)
  refine (val_main_v24_apply x _).trans ?_
  rw [Fin.sum_univ_two, val_main_cst_apply, Ideal.ofBits_def, Ideal.ofBits_zero_f32, zero_add,
    val_main_v23_apply, val_main_v23_apply, Ideal.mulf_def, Ideal.mulf_def, h0, h1]

/-- The normaliser of the first stack at a pixel, the same for both components. -/
private theorem norm0 (x : FVec Ideal S64x1x512x512 .f32) (b : Fin 64) (h w : Fin 512) (k : Fin 2) :
    val_main_v29 (F := Ideal) x (ix5 b 0 h w k)
      = Ideal.sqrt (rowDiff (planes x) b h w * rowDiff (planes x) b h w
          + colDiff (planes x) b h w * colDiff (planes x) b h w + eps) := by
  refine (val_main_v29_apply (F := Ideal) x _).trans ?_
  refine (val_main_v28_apply (F := Ideal) x _).trans ?_
  rw [Ideal.hostUnary_sqrt_def]
  refine congrArg Ideal.sqrt ?_
  refine (val_main_v27_apply (F := Ideal) x _).trans ?_
  rw [Ideal.addf_def]
  refine congrArg₂ (· + ·) ?_ ?_
  · refine (val_main_v25_apply (F := Ideal) x _).trans ?_
    refine (congrArg (val_main_v24 (F := Ideal) x) ?_).trans (normSq0 x b h w)
    funext a
    match a with | ⟨0, _⟩ => rfl | ⟨1, _⟩ => rfl | ⟨2, _⟩ => rfl | ⟨3, _⟩ => rfl
  · exact (val_main_v26_apply (F := Ideal) _).trans rfl

/-- The unit gradient of the first stack at a pixel: its row component. -/
private theorem unit0_row (x : FVec Ideal S64x1x512x512 .f32) (b : Fin 64) (h w : Fin 512) :
    val_main_v30 (F := Ideal) x (ix5 b 0 h w 0)
      = Ideal.div (rowDiff (planes x) b h w)
          (Ideal.sqrt (rowDiff (planes x) b h w * rowDiff (planes x) b h w
            + colDiff (planes x) b h w * colDiff (planes x) b h w + eps)) :=
  (val_main_v30_apply (F := Ideal) x _).trans (congrArg₂ Ideal.div (pair0_row x b h w) (norm0 x b h w 0))

/-- Its column component. -/
private theorem unit0_col (x : FVec Ideal S64x1x512x512 .f32) (b : Fin 64) (h w : Fin 512) :
    val_main_v30 (F := Ideal) x (ix5 b 0 h w 1)
      = Ideal.div (colDiff (planes x) b h w)
          (Ideal.sqrt (rowDiff (planes x) b h w * rowDiff (planes x) b h w
            + colDiff (planes x) b h w * colDiff (planes x) b h w + eps)) :=
  (val_main_v30_apply (F := Ideal) x _).trans (congrArg₂ Ideal.div (pair0_col x b h w) (norm0 x b h w 1))

/-- The row gradient of the second stack at a pixel. -/
private theorem rowGrad1 (x : FVec Ideal S64x1x512x512 .f32) (b : Fin 64) (h w : Fin 512) :
    val_main_v40 (F := Ideal) x (ix4 b 0 h w) = rowDiff (planes x) b h w := by
  unfold val_main_v40 val_main_v33 val_main_v36 val_main_v39 val_main_v31 val_main_v32 val_main_v34 val_main_v35 val_main_v37 val_main_v38
  exact rowGrad_apply 64 x _ _ _ _ _ _ _ b h w

/-- The column gradient of the second stack at a pixel. -/
private theorem colGrad1 (x : FVec Ideal S64x1x512x512 .f32) (b : Fin 64) (h w : Fin 512) :
    val_main_v50 (F := Ideal) x (ix4 b 0 h w) = colDiff (planes x) b h w := by
  unfold val_main_v50 val_main_v43 val_main_v46 val_main_v49 val_main_v41 val_main_v42 val_main_v44 val_main_v45 val_main_v47 val_main_v48
  exact colGrad_apply 64 x _ _ _ _ _ _ _ b h w

/-- The stacked gradient pair of the second stack at a pixel: its first component is the row gradient. -/
private theorem pair1_row (x : FVec Ideal S64x1x512x512 .f32) (b : Fin 64) (h w : Fin 512) :
    val_main_v53 (F := Ideal) x (ix5 b 0 h w 0) = rowDiff (planes x) b h w := by
  unfold val_main_v53
  refine (concatenate_pair_apply_left (t := S64x1x512x512x2) (s₁ := S64x1x512x512x1) (s₂ := S64x1x512x512x1) 4 _ _ _
    (ix5 b (0 : Fin 1) h w (0 : Fin 2)) rfl (ix5 b (0 : Fin 1) h w (0 : Fin 1)) (fun a => ?_)).trans ?_
  · match a with | ⟨0, _⟩ => rfl | ⟨1, _⟩ => rfl | ⟨2, _⟩ => rfl | ⟨3, _⟩ => rfl | ⟨4, _⟩ => rfl
  · refine (val_main_v51_apply (F := Ideal) x _).trans ?_
    refine (congrArg (val_main_v40 (F := Ideal) x) ?_).trans (rowGrad1 x b h w)
    funext a
    match a with | ⟨0, _⟩ => rfl | ⟨1, _⟩ => rfl | ⟨2, _⟩ => rfl | ⟨3, _⟩ => rfl

/-- Its second component is the column gradient. -/
private theorem pair1_col (x : FVec Ideal S64x1x512x512 .f32) (b : Fin 64) (h w : Fin 512) :
    val_main_v53 (F := Ideal) x (ix5 b 0 h w 1) = colDiff (planes x) b h w := by
  unfold val_main_v53
  refine (concatenate_pair_apply_right (t := S64x1x512x512x2) (s₁ := S64x1x512x512x1) (s₂ := S64x1x512x512x1) 4 _ _ _
    (ix5 b (0 : Fin 1) h w (1 : Fin 2)) rfl rfl (ix5 b (0 : Fin 1) h w (0 : Fin 1)) (fun a ha => ?_) rfl).trans ?_
  · match a with | ⟨0, _⟩ => rfl | ⟨1, _⟩ => rfl | ⟨2, _⟩ => rfl | ⟨3, _⟩ => rfl | ⟨4, _⟩ => exact absurd rfl ha
  · refine (val_main_v52_apply (F := Ideal) x _).trans ?_
    refine (congrArg (val_main_v50 (F := Ideal) x) ?_).trans (colGrad1 x b h w)
    funext a
    match a with | ⟨0, _⟩ => rfl | ⟨1, _⟩ => rfl | ⟨2, _⟩ => rfl | ⟨3, _⟩ => rfl

/-- The squared length of the second stack's gradient at a pixel. -/
private theorem normSq1 (x : FVec Ideal S64x1x512x512 .f32) (b : Fin 64) (h w : Fin 512) :
    val_main_v55 (F := Ideal) x (ix4 b 0 h w)
      = rowDiff (planes x) b h w * rowDiff (planes x) b h w + colDiff (planes x) b h w * colDiff (planes x) b h w := by
  have e0 : idx_main_v55 (ix4 b (0 : Fin 1) h w) (0 : Fin 2) = ix5 b (0 : Fin 1) h w (0 : Fin 2) :=
    funext fun a => by match a with | ⟨0, _⟩ => rfl | ⟨1, _⟩ => rfl | ⟨2, _⟩ => rfl | ⟨3, _⟩ => rfl | ⟨4, _⟩ => rfl
  have e1 : idx_main_v55 (ix4 b (0 : Fin 1) h w) (1 : Fin 2) = ix5 b (0 : Fin 1) h w (1 : Fin 2) :=
    funext fun a => by match a with | ⟨0, _⟩ => rfl | ⟨1, _⟩ => rfl | ⟨2, _⟩ => rfl | ⟨3, _⟩ => rfl | ⟨4, _⟩ => rfl
  have h0 : val_main_v53 (F := Ideal) x (idx_main_v55 (ix4 b (0 : Fin 1) h w) (0 : Fin 2)) = rowDiff (planes x) b h w :=
    (congrArg (val_main_v53 (F := Ideal) x) e0).trans (pair1_row x b h w)
  have h1 : val_main_v53 (F := Ideal) x (idx_main_v55 (ix4 b (0 : Fin 1) h w) (1 : Fin 2)) = colDiff (planes x) b h w :=
    (congrArg (val_main_v53 (F := Ideal) x) e1).trans (pair1_col x b h w)
  refine (val_main_v55_apply x _).trans ?_
  rw [Fin.sum_univ_two, val_main_cst_1_apply, Ideal.ofBits_def, Ideal.ofBits_zero_f32, zero_add,
    val_main_v54_apply, val_main_v54_apply, Ideal.mulf_def, Ideal.mulf_def, h0, h1]

/-- The normaliser of the second stack at a pixel, the same for both components. -/
private theorem norm1 (x : FVec Ideal S64x1x512x512 .f32) (b : Fin 64) (h w : Fin 512) (k : Fin 2) :
    val_main_v60 (F := Ideal) x (ix5 b 0 h w k)
      = Ideal.sqrt (rowDiff (planes x) b h w * rowDiff (planes x) b h w
          + colDiff (planes x) b h w * colDiff (planes x) b h w + eps) := by
  refine (val_main_v60_apply (F := Ideal) x _).trans ?_
  refine (val_main_v59_apply (F := Ideal) x _).trans ?_
  rw [Ideal.hostUnary_sqrt_def]
  refine congrArg Ideal.sqrt ?_
  refine (val_main_v58_apply (F := Ideal) x _).trans ?_
  rw [Ideal.addf_def]
  refine congrArg₂ (· + ·) ?_ ?_
  · refine (val_main_v56_apply (F := Ideal) x _).trans ?_
    refine (congrArg (val_main_v55 (F := Ideal) x) ?_).trans (normSq1 x b h w)
    funext a
    match a with | ⟨0, _⟩ => rfl | ⟨1, _⟩ => rfl | ⟨2, _⟩ => rfl | ⟨3, _⟩ => rfl
  · exact (val_main_v57_apply (F := Ideal) _).trans rfl

/-- The unit gradient of the second stack at a pixel: its row component. -/
private theorem unit1_row (x : FVec Ideal S64x1x512x512 .f32) (b : Fin 64) (h w : Fin 512) :
    val_main_v61 (F := Ideal) x (ix5 b 0 h w 0)
      = Ideal.div (rowDiff (planes x) b h w)
          (Ideal.sqrt (rowDiff (planes x) b h w * rowDiff (planes x) b h w
            + colDiff (planes x) b h w * colDiff (planes x) b h w + eps)) :=
  (val_main_v61_apply (F := Ideal) x _).trans (congrArg₂ Ideal.div (pair1_row x b h w) (norm1 x b h w 0))

/-- Its column component. -/
private theorem unit1_col (x : FVec Ideal S64x1x512x512 .f32) (b : Fin 64) (h w : Fin 512) :
    val_main_v61 (F := Ideal) x (ix5 b 0 h w 1)
      = Ideal.div (colDiff (planes x) b h w)
          (Ideal.sqrt (rowDiff (planes x) b h w * rowDiff (planes x) b h w
            + colDiff (planes x) b h w * colDiff (planes x) b h w + eps)) :=
  (val_main_v61_apply (F := Ideal) x _).trans (congrArg₂ Ideal.div (pair1_col x b h w) (norm1 x b h w 1))

/-- The inner product of the two stacks' unit gradients at a pixel. -/
private theorem dot_apply (x0 x1 : FVec Ideal S64x1x512x512 .f32) (b : Fin 64) (h w : Fin 512) :
    val_main_v63 (F := Ideal) x0 x1 (ix4 b 0 h w)
      = Ideal.div (rowDiff (planes x0) b h w)
            (Ideal.sqrt (rowDiff (planes x0) b h w * rowDiff (planes x0) b h w
              + colDiff (planes x0) b h w * colDiff (planes x0) b h w + eps))
          * Ideal.div (rowDiff (planes x1) b h w)
            (Ideal.sqrt (rowDiff (planes x1) b h w * rowDiff (planes x1) b h w
              + colDiff (planes x1) b h w * colDiff (planes x1) b h w + eps))
        + Ideal.div (colDiff (planes x0) b h w)
            (Ideal.sqrt (rowDiff (planes x0) b h w * rowDiff (planes x0) b h w
              + colDiff (planes x0) b h w * colDiff (planes x0) b h w + eps))
          * Ideal.div (colDiff (planes x1) b h w)
            (Ideal.sqrt (rowDiff (planes x1) b h w * rowDiff (planes x1) b h w
              + colDiff (planes x1) b h w * colDiff (planes x1) b h w + eps)) := by
  have e0 : idx_main_v63 (ix4 b (0 : Fin 1) h w) (0 : Fin 2) = ix5 b (0 : Fin 1) h w (0 : Fin 2) :=
    funext fun a => by match a with | ⟨0, _⟩ => rfl | ⟨1, _⟩ => rfl | ⟨2, _⟩ => rfl | ⟨3, _⟩ => rfl | ⟨4, _⟩ => rfl
  have e1 : idx_main_v63 (ix4 b (0 : Fin 1) h w) (1 : Fin 2) = ix5 b (0 : Fin 1) h w (1 : Fin 2) :=
    funext fun a => by match a with | ⟨0, _⟩ => rfl | ⟨1, _⟩ => rfl | ⟨2, _⟩ => rfl | ⟨3, _⟩ => rfl | ⟨4, _⟩ => rfl
  refine (val_main_v63_apply x0 x1 _).trans ?_
  rw [Fin.sum_univ_two, val_main_cst_3_apply, Ideal.ofBits_def, Ideal.ofBits_zero_f32, zero_add,
    val_main_v62_apply, val_main_v62_apply, Ideal.mulf_def, Ideal.mulf_def, e0, e1,
    unit0_row, unit0_col, unit1_row, unit1_col]

/-- The reference's `dot * dot` at pixel `(b, h, w)`. -/
theorem sq_apply (x0 x1 : FVec Ideal S64x1x512x512 .f32) (b : Fin 64) (h w : Fin 512) :
    val_main_v64 (F := Ideal) x0 x1 (ix4 b 0 h w) = pix (planes x0) (planes x1) b h w := by
  refine (val_main_v64_apply (F := Ideal) x0 x1 _).trans ?_
  rw [Ideal.mulf_def, dot_apply]
  rfl

/-- The reference's result: one minus the mean. -/
theorem result_eq (x0 x1 : FVec Ideal S64x1x512x512 .f32) :
    val_main_v67 (F := Ideal) x0 x1 = fun _ => loss (planes x0) (planes x1) := by
  funext i
  refine (val_main_v67_apply (F := Ideal) x0 x1 i).trans ?_
  rw [Ideal.subf_def, val_main_v66_apply, Ideal.hostDivf_def, val_main_v65_apply,
    val_main_cst_4_apply, val_main_cst_5_apply, val_main_cst_6_apply,
    Ideal.ofBits_def, Ideal.ofBits_def, Ideal.ofBits_def, Ideal.ofBits_zero_f32, zero_add]
  unfold loss planeSum Cert.NGF.one Cert.NGF.count
  refine congrArg (fun s => Ideal.ofBits .f32 0x3F800000#32 - Ideal.div s (Ideal.ofBits .f32 0x4B800000#32)) ?_
  refine (sum_stack _).trans ?_
  exact Finset.sum_congr rfl fun b _ => Finset.sum_congr rfl fun h _ => Finset.sum_congr rfl fun w _ => sq_apply x0 x1 b h w

end Cert.ReferenceIdeal.RefValue

end
-- ==== Proof.lean ====
/-
  The kernel computes, on stacks I0 and I1 of sixty-four 512 x 512 planes, one minus the mean over all pixels of the
  squared inner product of the two stacks' unit-normalised finite-difference gradients; the reference computes the
  same quantity. Over the extended reals both results are
      1 - (∑ over planes, rows and columns of pix I0 I1) / 2 ^ 24,
  where `pix` is the per-pixel quantity of Proof/Stencil.lean: the gradient components are differences of clamped
  neighbours, the normaliser is `sqrt (gx² + gy² + eps)` with the same single-precision word for `eps` in both programs.
  The reference stacks the two components on a fifth axis and sums over it from zero; the kernel adds them directly:
  adding the extended real zero changes nothing. The reference sums all 2 ^ 24 squares at once from zero; the kernel
  sums two planes per grid point and adds the thirty-two partial sums in point order onto a zeroed accumulator, then
  divides and subtracts at the last point: addition of extended reals is commutative and associative, so the order
  and grouping do not matter, and no finiteness of the inputs is used. The ideal pass rewrote nothing.
-/
import proofs.«171857_j40200893891260_1_alg».proof.Defs
import proofs.«171857_j40200893891260_1_alg».proof.Proof.Gen.Kernel
import proofs.«171857_j40200893891260_1_alg».proof.Proof.Gen.Kernel.Frame
import proofs.«171857_j40200893891260_1_alg».proof.Proof.Gen.KernelIdeal
import proofs.«171857_j40200893891260_1_alg».proof.Proof.Gen.KernelIdeal.Frame
import proofs.«171857_j40200893891260_1_alg».proof.Proof.Gen.ReferenceIdeal
import proofs.«171857_j40200893891260_1_alg».proof.Proof.Gen.ReferenceIdeal.Run
import proofs.«171857_j40200893891260_1_alg».proof.Proof.Gen.Pre_finite_inputs
import proofs.«171857_j40200893891260_1_alg».proof.Proof.KernelArray
import proofs.«171857_j40200893891260_1_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end at the loss of the argument stacks, and the stacks agree. -/
theorem algebraic : Cert.algebraic_KernelIdeal_ReferenceIdeal := by
  intro m ρ m' ρ' _ hagree
  refine ⟨fun c _ => Cert.NGF.loss (Cert.KernelIdeal.Arr.arg0 m c) (Cert.KernelIdeal.Arr.arg1 m c),
    Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v67_eq, Cert.ReferenceIdeal.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
